-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S2x131072x128 : Shape := ⟨3, ![2, 131072, 128]⟩
abbrev S2x3x128 : Shape := ⟨3, ![2, 3, 128]⟩
abbrev S1x4096x128 : Shape := ⟨3, ![1, 4096, 128]⟩
abbrev S1x3x128 : Shape := ⟨3, ![1, 3, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S3x128 : Shape := ⟨2, ![3, 128]⟩
abbrev S_ : Shape := ⟨0, ![]⟩
abbrev S1x10 : Shape := ⟨2, ![1, 10]⟩
abbrev S10 : Shape := ⟨1, ![10]⟩
abbrev S2x10 : Shape := ⟨2, ![2, 10]⟩

abbrev nBuf : Space → Nat
  | .hbm => 32
  | .vmem => 9
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S2x131072x128, .f32⟩
  | .hbm, ⟨3, _⟩ => ⟨S2x131072x128, .i32⟩
  | .hbm, ⟨4, _⟩ => ⟨S2x3x128, .f32⟩
  | .hbm, ⟨5, _⟩ => ⟨S_, .f32⟩
  | .hbm, ⟨6, _⟩ => ⟨S3x128, .f32⟩
  | .hbm, ⟨7, _⟩ => ⟨S1x10, .f32⟩
  | .hbm, ⟨8, _⟩ => ⟨S10, .f32⟩
  | .hbm, ⟨9, _⟩ => ⟨S1x10, .f32⟩
  | .hbm, ⟨10, _⟩ => ⟨S10, .f32⟩
  | .hbm, ⟨11, _⟩ => ⟨S1x10, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .i1⟩
  | .hbm, ⟨19, _⟩ => ⟨S10, .f32⟩
  | .hbm, ⟨20, _⟩ => ⟨S_, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S10, .f32⟩
  | .hbm, ⟨28, _⟩ => ⟨S10, .f32⟩
  | .hbm, ⟨29, _⟩ => ⟨S1x10, .f32⟩
  | .hbm, ⟨30, _⟩ => ⟨S1x10, .f32⟩
  | .hbm, ⟨31, _⟩ => ⟨S2x10, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .i32⟩
  | .local _ .vmem, ⟨3, _⟩ => ⟨S1x4096x128, .i32⟩
  | .local _ .vmem, ⟨4, _⟩ => ⟨S1x3x128, .f32⟩
  | .local _ .vmem, ⟨5, _⟩ => ⟨S1x3x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v348 : BitVec 1 := Scalar.cmpi .eq arg1 c31_i32
  let v349 : BitVec 32 := Scalar.extui v348
  let c0_i32_115 : BitVec 32 := 0#32
  let v350 : BitVec 1 := Scalar.cmpi .ne v349 c0_i32_115
  v350

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S2x131072x128 : S33554432.ShapeCasts S2x131072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  iota_S1x128_d1_w32 : S1x128.Iotas .tc 32 [1]
  natLt_1_32 : 1 < 32
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  broadcasts_S1x1_S1x128 : S1x1.Broadcasts S1x128
  concatenates_S1x128_S1x128_S1x128_S3x128_d0 : Shape.Concatenates [S1x128, S1x128, S1x128] S3x128 0
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  reducesTo_S2x3x128_S3x128_d0 : S2x3x128.ReducesTo [0] S3x128
  h_S_ : 0 < S_.numel
  slices_S3x128_S1x10_0_0 : S3x128.Slices ![0, 0] S1x10
  shapeCasts_S1x10_S10 : S1x10.ShapeCasts S10
  slices_S3x128_S1x10_1_0 : S3x128.Slices ![1, 0] S1x10
  slices_S3x128_S1x10_2_0 : S3x128.Slices ![2, 0] S1x10
  bcast_S_S10 : S_.BroadcastsInDim S10 (![] : Fin 0 → Fin S10.rank)
  bcast_S10_S1x10_1 : S10.BroadcastsInDim S1x10 (![1] : Fin 1 → Fin S1x10.rank)
  concatenates_S1x10_S1x10_S2x10_d0 : Shape.Concatenates [S1x10, S1x10] S2x10 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x131072x128.size a
  hwx0_0 : ∀ i : grid0.Coords, EltTy.bits .f32 = 32 ∨ (Rect.block (s := S2x131072x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x131072x128.size a
  hwx0_1 : ∀ i : grid0.Coords, EltTy.bits .i32 = 32 ∨ (Rect.block (s := S2x131072x128) S1x4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)

variable [Facts₀]

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S10 : Shape := ⟨1, ![10]⟩
abbrev S33554432x1 : Shape := ⟨2, ![33554432, 1]⟩
abbrev S1x10 : Shape := ⟨2, ![1, 10]⟩
abbrev S2x10 : Shape := ⟨2, ![2, 10]⟩

abbrev nBuf : Space → Nat
  | .hbm => 60
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S33554432, .f32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S_, .i32⟩
  | .hbm, ⟨24, _⟩ => ⟨S33554432, .i32⟩
  | .hbm, ⟨25, _⟩ => ⟨S33554432, .i32⟩
  | .hbm, ⟨26, _⟩ => ⟨S_, .f32⟩
  | .hbm, ⟨27, _⟩ => ⟨S33554432, .f32⟩
  | .hbm, ⟨28, _⟩ => ⟨S_, .f32⟩
  | .hbm, ⟨29, _⟩ => ⟨S10, .f32⟩
  | .hbm, ⟨30, _⟩ => ⟨S33554432x1, .i32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S33554432x1, .i32⟩
  | .hbm, ⟨35, _⟩ => ⟨S10, .f32⟩
  | .hbm, ⟨36, _⟩ => ⟨S33554432, .f32⟩
  | .hbm, ⟨37, _⟩ => ⟨S_, .f32⟩
  | .hbm, ⟨38, _⟩ => ⟨S10, .f32⟩
  | .hbm, ⟨39, _⟩ => ⟨S33554432x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S10, .f32⟩
  | .hbm, ⟨46, _⟩ => ⟨S10, .i1⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S_, .f32⟩
  | .hbm, ⟨55, _⟩ => ⟨S10, .f32⟩
  | .hbm, ⟨56, _⟩ => ⟨S10, .f32⟩
  | .hbm, ⟨57, _⟩ => ⟨S1x10, .f32⟩
  | .hbm, ⟨58, _⟩ => ⟨S1x10, .f32⟩
  | .hbm, ⟨59, _⟩ => ⟨S2x10, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_v29 : Ref sig .tc := ⟨.hbm, 51, rfl⟩
abbrev main_v30 : Ref sig .tc := ⟨.hbm, 52, rfl⟩
abbrev main_cst_11 : Ref sig .tc := ⟨.hbm, 53, rfl⟩
abbrev main_call2_v0 : Ref sig .tc := ⟨.hbm, 54, rfl⟩
abbrev main_call2_v1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  bcast_S10_S1x10_1 : S10.BroadcastsInDim S1x10 (![1] : Fin 1 → Fin S1x10.rank)
  concatenates_S1x10_S1x10_S2x10_d0 : Shape.Concatenates [S1x10, S1x10] S2x10 0
  scatter_S10_S33554432x1_S33554432_n_0_0_1_wf : ScatterDims.WF S10 S33554432x1 S33554432 [] [0] [0] 1

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf

class Facts : Prop extends Facts₀ where

variable [Facts]
-- ==== Proof.Spec.lean ====
/-
  The mathematics of a ten-bin reliability histogram, with no program in sight.

  A logit x has confidence conf x = 1 / (1 + e^(-x)) and falls into bin
  binOf x = clamp (⌈10 · conf x⌉ - 1) into [0, 9], a signed 32-bit word. For a bin word b the three statistics
  are sums over all elements i of  [binOf x_i = b] · u_i  with u = 1, u = conf x, u = the label as a number.

  The kernel lays the ten bin sums of a block of elements along the first ten lanes of a 128-lane row by a chain
  of ten selects on the lane number: lane w holds f 9 if w = 9, else f 8 if w = 8, …, else f 0 if w = 0, else 0.
  That chain (`rowChain`) is additive in f, so accumulating rows accumulates the sums lane by lane, and at a
  lane below ten it is the sum for that lane's bin.
-/
import Idealize.ShloMosaic.PureOps.Ideal
import Idealize.ShloMosaic.PureOps.Ideal.Laws
import Idealize.ShloMosaic.Lib.ValueIdx
import Idealize.ShloMosaic.Lib.IdealHost

noncomputable section

namespace Cert.Hist

open Idealize.ShloMosaic
open scoped BigOperators

/-! ## The select chain over the lane number -/

/-- A chain of selects on a lane word `w` over a list of bin words: the value of the first listed bin that `w` equals,
    and zero when it equals none. -/
def chainOver : List (BitVec 32) → BitVec 32 → (BitVec 32 → EReal) → EReal
  | [], _, _ => 0
  | b :: bs, w, f => if w = b then f b else chainOver bs w f

/-- A chain is additive in the bin values. -/
theorem chainOver_add (bs : List (BitVec 32)) (w : BitVec 32) (f g : BitVec 32 → EReal) :
    chainOver bs w f + chainOver bs w g = chainOver bs w (fun b => f b + g b) := by
  induction bs with
  | nil => simp [chainOver]
  | cons b bs ih =>
    unfold chainOver
    by_cases h : w = b
    · rw [if_pos h, if_pos h, if_pos h]
    · rw [if_neg h, if_neg h, if_neg h, ih]

/-- A chain of zeros is zero. -/
theorem chainOver_zero (bs : List (BitVec 32)) (w : BitVec 32) : chainOver bs w (fun _ => 0) = 0 := by
  induction bs with
  | nil => rfl
  | cons b bs ih =>
    unfold chainOver
    by_cases h : w = b
    · rw [if_pos h]
    · rw [if_neg h, ih]

/-- Ten selects on a lane word `w`, the last bin outermost: the value for bin 9 at lane 9, …, for bin 0 at lane 0,
    and zero at every other lane. -/
def rowChain (w : BitVec 32) (f : BitVec 32 → EReal) : EReal :=
  chainOver [9#32, 8#32, 7#32, 6#32, 5#32, 4#32, 3#32, 2#32, 1#32, 0#32] w f

/-- The ten selects written out. -/
theorem rowChain_eq (w : BitVec 32) (f : BitVec 32 → EReal) :
    rowChain w f =
      if w = 9#32 then f 9#32 else if w = 8#32 then f 8#32 else if w = 7#32 then f 7#32 else if w = 6#32 then f 6#32
      else if w = 5#32 then f 5#32 else if w = 4#32 then f 4#32 else if w = 3#32 then f 3#32 else if w = 2#32 then f 2#32
      else if w = 1#32 then f 1#32 else if w = 0#32 then f 0#32 else 0 := rfl

/-- The chain is additive in the bin values. -/
theorem rowChain_add (w : BitVec 32) (f g : BitVec 32 → EReal) :
    rowChain w f + rowChain w g = rowChain w (fun b => f b + g b) := chainOver_add _ w f g

/-- The chain of zeros is zero. -/
theorem rowChain_zero (w : BitVec 32) : rowChain w (fun _ => 0) = 0 := chainOver_zero _ w

/-- At a lane below ten the chain is that lane's bin value. -/
theorem rowChain_lt (k : Nat) (hk : k < 10) (f : BitVec 32 → EReal) :
    rowChain (BitVec.ofNat 32 k) f = f (BitVec.ofNat 32 k) := by
  interval_cases k <;> simp [rowChain, chainOver]

/-! ## Masked sums -/

/-- The sum over a block of R rows and Q lanes of the entries whose bin word is `b`. -/
def maskedSum {R Q : Nat} (bins : Fin R → Fin Q → BitVec 32) (u : Fin R → Fin Q → EReal) (b : BitVec 32) : EReal :=
  ∑ r : Fin R, ∑ q : Fin Q, if bins r q = b then u r q else 0

/-! ## One element -/

/-- The confidence of a logit: the logistic function. -/
def conf (a : EReal) : EReal := FloatOps.logistic (F := Ideal) (φ := .f32) a

/-- The bin word of a logit: ⌈10 · conf⌉ as a signed 32-bit word, less one, clamped below by 0 and above by 9. -/
def binOf (a : EReal) : BitVec 32 :=
  IntOp.minsi 9#32 (IntOp.maxsi 0#32 (IntOp.subi
    (FloatOps.fptosi (F := Ideal) (φ := .f32) 32 (FloatOps.ceil (F := Ideal) (φ := .f32)
      (FloatOps.mulf (F := Ideal) (φ := .f32) (conf a) (FloatOps.ofBits (F := Ideal) .f32 0x41200000#32)))) 1#32))

/-- A label as a number. -/
def labelOf (y : BitVec 32) : EReal := FloatOps.sitofp (F := Ideal) .f32 y

/-- A bin word lies between 0 and 9 as a signed number. -/
theorem binOf_range (a : EReal) : 0 ≤ (binOf a).toInt ∧ (binOf a).toInt ≤ 9 := by
  unfold binOf IntOp.minsi IntOp.maxsi
  generalize IntOp.subi _ 1#32 = z
  have h9 : (9#32 : BitVec 32).toInt = 9 := by decide
  have h0 : (0#32 : BitVec 32).toInt = 0 := by decide
  simp only [BitVec.slt]
  split_ifs with h1 h2 h2 <;> simp only [decide_eq_true_eq, not_lt] at * <;> omega

/-! ## The flat array, and its elements by grid point, row and lane -/

/-- The flat position of lane `q` of row `r` of the block at grid point `t`: blocks of 4096 rows of 128 lanes, one
    after the other. -/
def flatPos (t : Fin 64) (r : Fin 4096) (q : Fin 128) : Fin 33554432 :=
  ⟨(t.val * 4096 + r.val) * 128 + q.val, by have := t.isLt; have := r.isLt; have := q.isLt; omega⟩

/-- A sum over the flat positions is the sum over grid points, rows and lanes. -/
theorem sum_flatPos {M : Type*} [AddCommMonoid M] (g : Fin 33554432 → M) :
    ∑ k : Fin 33554432, g k = ∑ t : Fin 64, ∑ r : Fin 4096, ∑ q : Fin 128, g (flatPos t r q) := by
  let e : (Fin 64 × Fin 4096) × Fin 128 ≃ Fin 33554432 :=
    ((finProdFinEquiv.prodCongr (Equiv.refl _)).trans finProdFinEquiv).trans (finCongr (by norm_num))
  rw [← e.sum_comp g, Fintype.sum_prod_type, Fintype.sum_prod_type]
  refine Finset.sum_congr rfl fun t _ => Finset.sum_congr rfl fun r _ => Finset.sum_congr rfl fun q _ => ?_
  congr 1
  apply Fin.ext
  simp only [e, Equiv.trans_apply, Equiv.prodCongr_apply, Equiv.refl_apply, Prod.map_apply, id_eq,
    finProdFinEquiv_apply_val, finCongr_apply, Fin.coe_cast, flatPos]
  ring

/-- A sum over the indices of a one-axis shape is the sum over its positions. -/
theorem sum_idx1 {M : Type*} [AddCommMonoid M] {n : Nat} (f : (⟨1, ![n]⟩ : Shape).Idx → M) :
    ∑ i : (⟨1, ![n]⟩ : Shape).Idx, f i = ∑ k : Fin n, f (ValueIdx.ix1 k) := by
  let e : Fin n ≃ (⟨1, ![n]⟩ : Shape).Idx :=
    ⟨ValueIdx.ix1, fun j => j 0, fun _ => rfl, fun j => (ValueIdx.eq_ix1 j).symm⟩
  exact (e.sum_comp f).symm

/-- The statistic of bin word `b`: the sum over all elements whose logit falls in that bin of the element's value. -/
def stat (x : (⟨1, ![33554432]⟩ : Shape).Idx → EReal) (u : (⟨1, ![33554432]⟩ : Shape).Idx → EReal) (b : BitVec 32) : EReal :=
  ∑ i : (⟨1, ![33554432]⟩ : Shape).Idx, if binOf (x i) = b then u i else 0

/-- The statistic, block by block: the sum over the grid's points of each block's masked sum. -/
theorem stat_eq_blocks (x u : (⟨1, ![33554432]⟩ : Shape).Idx → EReal) (b : BitVec 32) :
    stat x u b = ∑ t : Fin 64, maskedSum (fun r q => binOf (x (ValueIdx.ix1 (flatPos t r q))))
      (fun r q => u (ValueIdx.ix1 (flatPos t r q))) b := by
  unfold stat maskedSum
  rw [sum_idx1, sum_flatPos]

/-! ## The three statistics as ten-entry vectors, and what both programs do with them -/

/-- Entry `k` of a ten-entry vector names bin word `k`. -/
def binWord (k : (⟨1, ![10]⟩ : Shape).Idx) : BitVec 32 := BitVec.ofNat 32 (k 0).val

/-- How many elements fall in each bin. -/
def counts (x : (⟨1, ![33554432]⟩ : Shape).Idx → EReal) : (⟨1, ![10]⟩ : Shape).Idx → EReal :=
  fun k => stat x (fun _ => 1) (binWord k)

/-- The sum of the confidences in each bin. -/
def sumConf (x : (⟨1, ![33554432]⟩ : Shape).Idx → EReal) : (⟨1, ![10]⟩ : Shape).Idx → EReal :=
  fun k => stat x (fun i => conf (x i)) (binWord k)

/-- The sum of the labels in each bin. -/
def sumPos (x : (⟨1, ![33554432]⟩ : Shape).Idx → EReal) (y : (⟨1, ![33554432]⟩ : Shape).Idx → BitVec 32) :
    (⟨1, ![10]⟩ : Shape).Idx → EReal :=
  fun k => stat x (fun i => labelOf (y i)) (binWord k)

/-- What both programs compute from the three statistics: per bin, where the count is positive the label sum and the
    confidence sum each divided by the count raised to at least one, and zero elsewhere; the two rows stacked. The
    shape facts are arguments, so that each program's own witnesses fit. -/
def tail {F : FTy → Type} [FloatOps F]
    (hb : (⟨0, ![]⟩ : Shape).BroadcastsInDim ⟨1, ![10]⟩ (![] : Fin 0 → Fin 1))
    (hr : (⟨1, ![10]⟩ : Shape).BroadcastsInDim ⟨2, ![1, 10]⟩ (![1] : Fin 1 → Fin 2))
    (hc : Shape.Concatenates [(⟨2, ![1, 10]⟩ : Shape), ⟨2, ![1, 10]⟩] ⟨2, ![2, 10]⟩ 0)
    (cnt sc sp : FVec F ⟨1, ![10]⟩ .f32) : FVec F ⟨2, ![2, 10]⟩ .f32 :=
  concatenate ⟨2, ![2, 10]⟩ 0
    [⟨⟨2, ![1, 10]⟩, broadcastInDim ⟨2, ![1, 10]⟩ ![1] hr
        (select (cmpf .ogt cnt (broadcastInDim ⟨1, ![10]⟩ ![] hb (constant ⟨0, ![]⟩ .f32 0x00000000#32)))
          (Host.divf sp (maximumf cnt (broadcastInDim ⟨1, ![10]⟩ ![] hb (constant ⟨0, ![]⟩ .f32 0x3F800000#32))))
          (broadcastInDim ⟨1, ![10]⟩ ![] hb (id (constant ⟨0, ![]⟩ .f32 0x00000000#32))))⟩,
     ⟨⟨2, ![1, 10]⟩, broadcastInDim ⟨2, ![1, 10]⟩ ![1] hr
        (select (cmpf .ogt cnt (broadcastInDim ⟨1, ![10]⟩ ![] hb (constant ⟨0, ![]⟩ .f32 0x00000000#32)))
          (Host.divf sc (maximumf cnt (broadcastInDim ⟨1, ![10]⟩ ![] hb (constant ⟨0, ![]⟩ .f32 0x3F800000#32))))
          (broadcastInDim ⟨1, ![10]⟩ ![] hb (id (constant ⟨0, ![]⟩ .f32 0x00000000#32))))⟩] hc

/-! ## What the kernel's region leaves in its output array -/

/-- The grid point of step `s` of half `h`: each half takes thirty-two consecutive points. -/
def gridPt (h : Fin 2) (s : Fin 32) : Fin 64 := ⟨32 * h.val + s.val, by have := h.isLt; have := s.isLt; omega⟩

/-- The value statistic `j` sums at an element: 1 for the count, the confidence, the label. -/
def statVal (j : Fin 3) (x : (⟨1, ![33554432]⟩ : Shape).Idx → EReal) (y : (⟨1, ![33554432]⟩ : Shape).Idx → BitVec 32) :
    (⟨1, ![33554432]⟩ : Shape).Idx → EReal :=
  match j with
  | 0 => fun _ => 1
  | 1 => fun i => conf (x i)
  | 2 => fun i => labelOf (y i)

/-- The masked sum of the block at grid point `t` for bin word `b`. -/
def blockStat (x u : (⟨1, ![33554432]⟩ : Shape).Idx → EReal) (t : Fin 64) (b : BitVec 32) : EReal :=
  maskedSum (fun r q => binOf (x (ValueIdx.ix1 (flatPos t r q)))) (fun r q => u (ValueIdx.ix1 (flatPos t r q))) b

/-- The statistic is the sum of the blocks' masked sums. -/
theorem stat_eq_blockStat (x u : (⟨1, ![33554432]⟩ : Shape).Idx → EReal) (b : BitVec 32) :
    stat x u b = ∑ t : Fin 64, blockStat x u t b := stat_eq_blocks x u b

/-- The output array of the region: at half `h`, statistic `j`, lane `l`, the select chain on the lane over the
    half's thirty-two blocks' masked sums. -/
def outSpec (x : (⟨1, ![33554432]⟩ : Shape).Idx → EReal) (y : (⟨1, ![33554432]⟩ : Shape).Idx → BitVec 32) :
    (⟨3, ![2, 3, 128]⟩ : Shape).Idx → EReal := fun i =>
  rowChain (BitVec.ofNat 32 (i 2).val) (fun b => ∑ s : Fin 32,
    blockStat x (statVal ⟨(i 1).val, (i 1).isLt⟩ x y) (gridPt ⟨(i 0).val, (i 0).isLt⟩ s) b)

end Cert.Hist

end
-- ==== Proof.LibScatterScalar.lean ====
/-
  A general fact about the host's scatter with SCALAR updates into a one-axis operand: operand of shape [N], scatter
  indices of shape [n, 1] (one index word per update, the index vector on axis 1), updates of shape [n] (no window
  axis; the operand's only axis is inserted and named by the scatter map). Update j lands on operand element i exactly
  when j's index word, read as a signed number, is i. With it the accumulating scatter at the ideal values reads, at
  element i, the operand's entry plus the sum of the updates whose index word is i.
-/
import Idealize.ShloMosaic.PureOps.Ideal
import Idealize.ShloMosaic.Lib.ValueIdx

noncomputable section

namespace Cert.LibScatterScalar

open Idealize.ShloMosaic Idealize.ShloMosaic.ValueIdx
open scoped BigOperators

/-- A list equal to a one-entry list has that entry at every position. -/
theorem getElem_singleton_of_eq {α : Type} {l : List α} {a : α} (h : l = [a]) (k : Nat) (hk : k < l.length) : l[k] = a := by
  subst h
  have : k = 0 := by simpa using hk
  subst this; rfl

/-- Where a scalar scatter lands: update `j` lands on operand element `i` exactly when the index word of `j`, read
    signed, is `i`'s position. -/
theorem lands_iff {N n w : Nat} (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1) (idx : IVec ⟨2, ![n, 1]⟩ w) (j : (⟨1, ![n]⟩ : Shape).Idx) (i : (⟨1, ![N]⟩ : Shape).Idx) :
    d.resultIdx? j idx = some i ↔
      (idx (ix2 (⟨(j 0).val, (j 0).isLt⟩ : Fin n) (0 : Fin 1))).toInt = (((i 0).val : Nat) : Int) := by
  -- the operand's one axis is inserted: no window coordinate on it
  have hsk : d.sKept = [] := by
    show Shape.kept _ d.insertedWindowDims = []
    rw [hins]; rfl
  have hw0 : d.window j (0 : Fin 1) = 0 := by
    unfold ScatterDims.window
    rw [dif_neg (by rw [hsk]; simp)]
  -- the updates' one axis is a scatter axis: it reads the index column's row
  have hus : d.uScatter = [0] := by
    show Shape.kept _ d.updateWindowDims = [0]
    rw [huw]; rfl
  have hs0 : d.start j idx (0 : Fin 1) = (idx (ix2 (⟨(j 0).val, (j 0).isLt⟩ : Fin n) (0 : Fin 1))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_singleton_of_eq hus]
    | ⟨1, _⟩ =>
      unfold ScatterDims.siIdx
      rw [dif_pos (by rw [hivd])]
      apply Fin.ext
      show List.idxOf (0 : Fin 1) d.scatterDimsToOperandDims = 0
      rw [hsd]; simp
  have hall : ∀ a : Fin 1, a = 0 := fun a => Fin.ext (by omega)
  unfold ScatterDims.resultIdx?
  constructor
  · intro h
    split at h
    · rename_i hin
      have hi := Option.some.inj h
      subst hi
      have h0 := hin (0 : Fin 1)
      rw [hs0, hw0] at h0
      show _ = (((d.start j idx (0 : Fin 1) + d.window j (0 : Fin 1)).toNat : Nat) : Int)
      rw [hs0, hw0]
      omega
    · exact absurd h (by simp)
  · intro h
    have hin : ∀ a, 0 ≤ d.start j idx a + d.window j a ∧ d.start j idx a + (d.window j a : Int) < (⟨1, ![N]⟩ : Shape).size a := by
      intro a
      rw [hall a, hs0, hw0, h]
      have hlt : (i 0).val < N := (i 0).isLt
      constructor
      · omega
      · show (((i 0).val : Nat) : Int) + ((0 : Nat) : Int) < ((N : Nat) : Int)
        omega
    rw [dif_pos hin]
    congr 1
    funext a
    apply Fin.ext
    rw [hall a]
    show (d.start j idx (0 : Fin 1) + d.window j (0 : Fin 1)).toNat = (i 0).val
    rw [hs0, hw0, h]
    omega

/-- The accumulating scatter with scalar updates, read at operand element `i` at the ideal values: the operand's
    entry plus the sum over all updates of those whose index word, read signed, is `i`'s position. -/
theorem scatterAdd_apply {N n w : Nat} {φ : FTy} (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1) (x : FVec Ideal ⟨1, ![N]⟩ φ) (idx : IVec ⟨2, ![n, 1]⟩ w) (upd : FVec Ideal ⟨1, ![n]⟩ φ)
    (i : (⟨1, ![N]⟩ : Shape).Idx) :
    Host.scatterAdd (F := Ideal) d x idx upd i =
      (x i : EReal) + ∑ j : (⟨1, ![n]⟩ : Shape).Idx,
        if (idx (ix2 (⟨(j 0).val, (j 0).isLt⟩ : Fin n) (0 : Fin 1))).toInt = (((i 0).val : Nat) : Int) then (upd j : EReal) else 0 := by
  show (x i : EReal) + ∑ j ∈ Finset.univ.filter (fun j => d.resultIdx? j idx = some i), (upd j : EReal) = _
  rw [Finset.sum_filter]
  congr 1
  refine Finset.sum_congr rfl fun j _ => ?_
  by_cases h : d.resultIdx? j idx = some i
  · rw [if_pos h, if_pos ((lands_iff d huw hins hsd hivd idx j i).mp h)]
  · rw [if_neg h, if_neg (fun h' => h ((lands_iff d huw hins hsd hivd idx j i).mpr h'))]

end Cert.LibScatterScalar

end
-- ==== Proof.RefValue.lean ====
/-
  The reference's value. Its result is what both programs compute (`Cert.Hist.tail`) from the three statistics of
  the whole input: the count, the confidence sum and the label sum of each of the ten bins. The reference forms each
  statistic by an accumulating scatter of one value per element into ten zeros, the element's bin word as the scatter
  index: at bin k that is zero plus the sum of the values of the elements whose bin word is k.
-/
import proofs.«176428_j44813688766553_1_alg».proof.Proof.RefRead
import proofs.«176428_j44813688766553_1_alg».proof.Proof.Spec
import proofs.«176428_j44813688766553_1_alg».proof.Proof.LibScatterScalar
import Idealize.ShloMosaic.Lib.IdealHost

noncomputable section

namespace Cert.Hist.Ref

open Cert.ReferenceIdeal Cert.ReferenceIdeal.Gen Cert.ReferenceIdeal.ReadP Idealize.ShloMosaic Idealize.ShloMosaic.TcCoe
open scoped BigOperators

/-- The reference's confidence of element `j` is the logistic function of its logit: one over one plus the
    exponential of the negated logit. -/
theorem v5_eq (x0 : (⟨S33554432, .f32⟩ : BufTy).Contents (Elt Ideal)) (j : S33554432.Idx) :
    val_main_v5 (F := Ideal) x0 j = Cert.Hist.conf (x0 j) := by
  rw [val_main_v5_apply, val_main_v4_apply, val_main_cst_0_apply, val_main_v3_apply, val_main_v2_apply,
    val_main_cst_apply, val_main_v1_apply, val_main_v0_apply]
  unfold Cert.Hist.conf
  rw [Ideal.ofBits_def, Ideal.ofBits_one_f32]
  rfl

/-- The reference's bin word of element `j` is the bin word of its logit. -/
theorem v12_eq (x0 : (⟨S33554432, .f32⟩ : BufTy).Contents (Elt Ideal)) (j : S33554432.Idx) :
    val_main_v12 (F := Ideal) x0 j = Cert.Hist.binOf (x0 j) := by
  rw [val_main_v12_apply, val_main_call0_v4_apply, val_main_call0_v3_apply, val_main_c_3_apply,
    val_main_call0_v2_apply, val_main_call0_v1_apply, val_main_call0_v0_apply, val_main_c_2_apply,
    val_main_v11_apply, val_main_v10_apply, val_main_c_apply, val_main_v9_apply, val_main_v8_apply,
    val_main_v7_apply, val_main_v6_apply, val_main_cst_1_apply, v5_eq]
  rfl

/-- A position below ten, as a 32-bit word read signed, is itself. -/
theorem toInt_ofNat_lt_ten (k : Nat) (hk : k < 10) : (BitVec.ofNat 32 k).toInt = (k : Int) := by
  interval_cases k <;> decide

/-- A word read signed is the position `k` below ten exactly when it is the word of `k`. -/
theorem toInt_eq_iff (w : BitVec 32) (k : Nat) (hk : k < 10) : w.toInt = (k : Int) ↔ w = BitVec.ofNat 32 k := by
  rw [← toInt_ofNat_lt_ten k hk]
  exact BitVec.toInt_inj

/-- The reference's index column, read at row `j`, is the bin word of element `j`. -/
theorem idx_row (x0 : (⟨S33554432, .f32⟩ : BufTy).Contents (Elt Ideal)) (j : S33554432.Idx) :
    broadcastInDim S33554432x1 ![0] bcast_S33554432_S33554432x1_0 (val_main_v12 (F := Ideal) x0)
        (ValueIdx.ix2 (⟨(j 0).val, (j 0).isLt⟩ : Fin 33554432) (0 : Fin 1))
      = Cert.Hist.binOf (x0 j) := by
  have h := val_main_v15_apply (F := Ideal) x0 (ValueIdx.ix2 (⟨(j 0).val, (j 0).isLt⟩ : Fin 33554432) (0 : Fin 1))
  unfold val_main_v15 at h
  rw [h, v12_eq]
  congr 2
  funext a
  match a with
  | ⟨0, _⟩ => rfl

/-- An accumulating scatter into ten zeros, the bin words as the index column, is the statistic of the scattered
    values: at entry `k`, zero plus the sum of the values of the elements whose bin word is `k`. -/
theorem scatter_eq_stat (x0 : (⟨S33554432, .f32⟩ : BufTy).Contents (Elt Ideal))
    (z : FVec Ideal S10 .f32) (hz : ∀ k, z k = 0) (upd : FVec Ideal S33554432 .f32) (k : S10.Idx) :
    Host.scatterAdd (F := Ideal) scatter_S10_S33554432x1_S33554432_n_0_0_1 z
        (broadcastInDim S33554432x1 ![0] bcast_S33554432_S33554432x1_0 (val_main_v12 (F := Ideal) x0)) upd k
      = Cert.Hist.stat x0 upd (Cert.Hist.binWord k) := by
  rw [Cert.LibScatterScalar.scatterAdd_apply _ rfl rfl rfl rfl, hz k, zero_add]
  unfold Cert.Hist.stat Cert.Hist.binWord
  refine Finset.sum_congr rfl fun j _ => ?_
  rw [idx_row]
  exact if_congr (toInt_eq_iff _ _ (k 0).isLt) rfl rfl

/-- The count scatter is the count statistic. -/
theorem v16_eq (x0 : (⟨S33554432, .f32⟩ : BufTy).Contents (Elt Ideal)) :
    val_main_v16 (F := Ideal) x0 = Cert.Hist.counts x0 := by
  funext k
  have hz : ∀ k, val_main_v14 (F := Ideal) k = 0 := fun k => by
    rw [val_main_v14_apply, val_main_cst_5_apply, Ideal.ofBits_def, Ideal.ofBits_zero_f32]
  have hu : val_main_v13 (F := Ideal) = fun _ => (1 : EReal) := by
    funext j
    rw [val_main_v13_apply, val_main_cst_4_apply, Ideal.ofBits_def, Ideal.ofBits_one_f32]
  unfold val_main_v16 val_main_v15 Cert.Hist.counts
  rw [scatter_eq_stat x0 _ hz, hu]

/-- The confidence scatter is the confidence statistic. -/
theorem v19_eq (x0 : (⟨S33554432, .f32⟩ : BufTy).Contents (Elt Ideal)) :
    val_main_v19 (F := Ideal) x0 = Cert.Hist.sumConf x0 := by
  funext k
  have hz : ∀ k, val_main_v17 (F := Ideal) k = 0 := fun k => by
    rw [val_main_v17_apply, val_main_cst_6_apply, Ideal.ofBits_def, Ideal.ofBits_zero_f32]
  have hu : val_main_v5 (F := Ideal) x0 = fun i => Cert.Hist.conf (x0 i) := funext (v5_eq x0)
  unfold val_main_v19 val_main_v18 Cert.Hist.sumConf
  rw [scatter_eq_stat x0 _ hz, hu]

/-- The label scatter is the label statistic. -/
theorem v23_eq (x0 : (⟨S33554432, .f32⟩ : BufTy).Contents (Elt Ideal)) (x1 : (⟨S33554432, .i32⟩ : BufTy).Contents (Elt Ideal)) :
    val_main_v23 (F := Ideal) x0 x1 = Cert.Hist.sumPos x0 x1 := by
  funext k
  have hz : ∀ k, val_main_v21 (F := Ideal) k = 0 := fun k => by
    rw [val_main_v21_apply, val_main_cst_7_apply, Ideal.ofBits_def, Ideal.ofBits_zero_f32]
  unfold val_main_v23 val_main_v22 Cert.Hist.sumPos
  rw [scatter_eq_stat x0 _ hz]
  rfl

/-- The reference's result is the shared tail of its three scatters. -/
theorem tail_eq (x0 : (⟨S33554432, .f32⟩ : BufTy).Contents (Elt Ideal)) (x1 : (⟨S33554432, .i32⟩ : BufTy).Contents (Elt Ideal)) :
    val_main_v34 (F := Ideal) x0 x1
      = Cert.Hist.tail (F := Ideal) bcast_S_S10 bcast_S10_S1x10_1 concatenates_S1x10_S1x10_S2x10_d0
          (val_main_v16 (F := Ideal) x0) (val_main_v19 (F := Ideal) x0) (val_main_v23 (F := Ideal) x0 x1) := rfl

/-- The reference's result array, as a function of the two argument arrays at the ideal values, is the shared tail of
    the three statistics. -/
theorem ref_result (x0 : (⟨S33554432, .f32⟩ : BufTy).Contents (Elt Ideal)) (x1 : (⟨S33554432, .i32⟩ : BufTy).Contents (Elt Ideal)) :
    val_main_v34 (F := Ideal) x0 x1
      = Cert.Hist.tail (F := Ideal) bcast_S_S10 bcast_S10_S1x10_1 concatenates_S1x10_S1x10_S2x10_d0
          (Cert.Hist.counts x0) (Cert.Hist.sumConf x0) (Cert.Hist.sumPos x0 x1) := by
  rw [tail_eq, v16_eq, v19_eq, v23_eq]

end Cert.Hist.Ref

end
-- ==== Proof.RowLemmas.lean ====
/-
  Small facts at the ideal values about the operations a block's bin sums are built from:
  an integer equality compare as a proposition, a select on it as an if-then-else, a one-bit mask widened and converted
  as the number 1 or 0, a two-stage reduction (lanes first, then rows) of an [R, Q] block as a double sum, a [1, 1]
  value spread along a [1, Q] row, and the lane number of a [1, Q] row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Hist.Rows

open Idealize.ShloMosaic Idealize.ShloMosaic.ValueIdx
open scoped BigOperators

/-! ## Compare, select, mask -/

/-- The vector compare reads lane by lane. -/
theorem cmpi_apply {s : Shape} {w : Nat} (p : CmpIPredicate) (a b : IVec s w) (i : s.Idx) :
    cmpi p a b i = IntOp.cmpi p (a i) (b i) := rfl

/-- The equality compare answers one exactly when the two words are equal. -/
theorem cmpi_eq_one_iff {w : Nat} (a b : BitVec w) : IntOp.cmpi .eq a b = 1#1 ↔ a = b := by
  unfold IntOp.cmpi
  by_cases h : a = b
  · subst h; simp
  · have hb : (a == b) = false := by simpa using h
    simp only [hb]
    constructor
    · intro h'; exact absurd h' (by decide)
    · intro h'; exact absurd h' h

/-- A select on an equality compare is an if-then-else on the equality. -/
theorem select_cmpi_eq {α : Type} {w : Nat} (a b : BitVec w) (u z : α) :
    Scalar.select (IntOp.cmpi .eq a b) u z = if a = b then u else z := by
  unfold Scalar.select
  by_cases h : a = b
  · rw [if_pos h, (cmpi_eq_one_iff a b).2 h]
    exact if_pos rfl
  · have hc : IntOp.cmpi .eq a b = 0#1 := ValueIdx.eq_zero_of_ne_one ((cmpi_eq_one_iff a b).not.2 h)
    rw [if_neg h, hc]
    exact if_neg (by decide)

/-- The mask bit of an equality compare, widened to 32 bits and converted, is the number 1 or 0. -/
theorem sitofp_mask {w : Nat} (a b : BitVec w) :
    FloatOps.sitofp (F := Ideal) .f32 ((IntOp.cmpi .eq a b).setWidth 32) = if a = b then (1 : EReal) else 0 := by
  by_cases h : a = b
  · rw [if_pos h, (cmpi_eq_one_iff a b).2 h]
    show ((((1#1 : BitVec 1).setWidth 32).toInt : ℝ) : EReal) = 1
    have : ((1#1 : BitVec 1).setWidth 32).toInt = 1 := by decide
    rw [this]; simp
  · rw [if_neg h]
    have hc : IntOp.cmpi .eq a b = 0#1 := by
      have := (cmpi_eq_one_iff a b).not.2 h
      exact ValueIdx.eq_zero_of_ne_one this
    rw [hc]
    show ((((0#1 : BitVec 1).setWidth 32).toInt : ℝ) : EReal) = 0
    have : ((0#1 : BitVec 1).setWidth 32).toInt = 0 := by decide
    rw [this]; simp

/-! ## A block's total: lanes first, then rows -/

/-- Reducing an [R, Q] block over its lanes, viewing the R row sums as a column, and reducing that over its rows leaves
    the sum over all rows and lanes. -/
theorem blockTotal {R Q : Nat} (v : FVec Ideal ⟨2, ![R, Q]⟩ .f32) (acc : BitVec 32)
    (h1 : (⟨2, ![R, Q]⟩ : Shape).Reduces [1] ⟨1, ![R]⟩) (hφ1 : FKind.Formats .f32) (hacc1 : acc = FKind.add.neutral .f32 hφ1)
    (hs : (⟨1, ![R]⟩ : Shape).ShapeCasts ⟨2, ![R, 1]⟩)
    (h2 : (⟨2, ![R, 1]⟩ : Shape).Reduces [0] ⟨1, ![1]⟩) (hφ2 : FKind.Formats .f32) (hacc2 : acc = FKind.add.neutral .f32 hφ2)
    (j : (⟨1, ![1]⟩ : Shape).Idx) :
    multiReduction .add [0] ⟨1, ![1]⟩
        (shapeCast ⟨2, ![R, 1]⟩ (multiReduction .add [1] ⟨1, ![R]⟩ v acc h1 hφ1 hacc1) hs) acc h2 hφ2 hacc2 j
      = ∑ r : Fin R, ∑ q : Fin Q, (v (ix2 r q) : EReal) := by
  rw [Ideal.multiReduction_add_single]
  show ∑ r : Fin R, _ = _
  refine Finset.sum_congr rfl fun r _ => ?_
  have hidx : h2.lift j r = ix2 r (0 : Fin 1) := by
    funext c
    apply Fin.ext
    match c with
    | ⟨0, _⟩ =>
      show h2.liftVal j r.val (0 : Fin 2) = r.val
      unfold Shape.Reduces.liftVal
      rw [dif_pos rfl]
    | ⟨1, _⟩ =>
      have := (h2.lift j r (1 : Fin 2)).isLt
      show (h2.lift j r (1 : Fin 2)).val = 0
      have h1' : (⟨2, ![R, 1]⟩ : Shape).size (1 : Fin 2) = 1 := rfl
      omega
  rw [hidx]
  have hcol : shapeCast ⟨2, ![R, 1]⟩ (multiReduction .add [1] ⟨1, ![R]⟩ v acc h1 hφ1 hacc1) hs (ix2 r (0 : Fin 1))
      = multiReduction .add [1] ⟨1, ![R]⟩ v acc h1 hφ1 hacc1 (ix1 r) :=
    shapeCast_apply _ hs _ _ (by
      rw [Shape.rowMajor_val_two, Shape.rowMajor_val_one]
      show r.val = r.val * 1 + 0
      omega)
  rw [hcol, Ideal.multiReduction_add_single]
  show ∑ q : Fin Q, _ = _
  refine Finset.sum_congr rfl fun q _ => ?_
  congr 1
  funext c
  apply Fin.ext
  match c with
  | ⟨0, _⟩ =>
    show h1.liftVal (ix1 r) q.val (0 : Fin 2) = r.val
    unfold Shape.Reduces.liftVal
    split
    · rename_i hc; exact absurd hc Nat.zero_ne_one
    · split
      · rfl
      · rename_i hlt; exact absurd Nat.zero_lt_one hlt
  | ⟨1, _⟩ =>
    show h1.liftVal (ix1 r) q.val (1 : Fin 2) = q.val
    unfold Shape.Reduces.liftVal
    rw [dif_pos rfl]

/-! ## Layout -/

/-- A one-entry vector viewed as [1, 1] reads its entry. -/
theorem shapeCast_1_11 {α : Type} (x : (⟨1, ![1]⟩ : Shape).Idx → α) (h : (⟨1, ![1]⟩ : Shape).ShapeCasts ⟨2, ![1, 1]⟩)
    (i : (⟨2, ![1, 1]⟩ : Shape).Idx) : shapeCast ⟨2, ![1, 1]⟩ x h i = x (ix1 (0 : Fin 1)) := by
  have hi : i = ix2 (0 : Fin 1) (0 : Fin 1) := by
    funext c; apply Fin.ext
    match c with
    | ⟨0, _⟩ => have := (i 0).isLt; show (i 0).val = 0; have h' : (⟨2, ![1, 1]⟩ : Shape).size 0 = 1 := rfl; omega
    | ⟨1, _⟩ => have := (i 1).isLt; show (i 1).val = 0; have h' : (⟨2, ![1, 1]⟩ : Shape).size 1 = 1 := rfl; omega
  rw [hi]
  exact shapeCast_a_1a_apply x h 0 0

/-- A [1, 1] value spread along a [1, Q] row reads that value at every lane. -/
theorem broadcastTo_11_1Q {α : Type} {Q : Nat} (v : (⟨2, ![1, 1]⟩ : Shape).Idx → α)
    (h : (⟨2, ![1, 1]⟩ : Shape).Broadcasts ⟨2, ![1, Q]⟩) (j : (⟨2, ![1, Q]⟩ : Shape).Idx) :
    broadcastTo ⟨2, ![1, Q]⟩ v h j = v (ix2 (0 : Fin 1) (0 : Fin 1)) :=
  broadcastTo_apply v h j _ (fun a => by
    match a with
    | ⟨0, h0⟩ =>
      have hsz : (⟨2, ![1, 1]⟩ : Shape).size ⟨0, h0⟩ = 1 := rfl
      rw [if_pos hsz]; rfl
    | ⟨1, h1⟩ =>
      have hsz : (⟨2, ![1, 1]⟩ : Shape).size ⟨1, h1⟩ = 1 := rfl
      rw [if_pos hsz]; rfl)

/-- The lane number of a [1, Q] row of lane numbers. -/
theorem iota_row {Q : Nat} (h : (⟨2, ![1, Q]⟩ : Shape).Iotas .tc 32 [1]) (u : Fin 1) (l : Fin Q) :
    iota .tc ⟨2, ![1, Q]⟩ 32 [1] h (ix2 u l) = BitVec.ofNat 32 l.val := by
  unfold iota
  congr 1
  show 0 * _ + l.val = l.val
  omega

end Cert.Hist.Rows

end
-- ==== Proof.KRows.lean ====
/-
  What one grid point adds to the three accumulators, as three rows of 128 lanes.

  From its block of logits x0 and of labels x1 the kernel body forms, for each of the ten bins b, the block's count,
  confidence sum and label sum of the entries whose bin word is b (a masked sum over 4096 rows of 128 lanes, reduced
  over lanes first and rows second), lays each family of ten along lanes 0 … 9 of a row by ten selects on the lane
  number, and adds the row to what the accumulator held. Here the three rows are named as the body's own terms over
  the loaded blocks and the previous contents, and read at a lane at the ideal values:
  previous + rowChain (lane) (bin ↦ the block's masked sum for that bin).
-/
import proofs.«176428_j44813688766553_1_alg».proof.Proof.Gen.KernelIdeal.Skeleton
import proofs.«176428_j44813688766553_1_alg».proof.Proof.Spec
import proofs.«176428_j44813688766553_1_alg».proof.Proof.RowLemmas

set_option maxRecDepth 16384

noncomputable section

namespace Cert.KernelIdeal.Rows

open Cert.KernelIdeal Cert.KernelIdeal.Gen Idealize.ShloMosaic Idealize.ShloMosaic.ValueIdx
open scoped BigOperators

variable {F : FTy → Type} [FloatOps F]

/-- The row of lane numbers 0 … 127. -/
abbrev lanes : IVec S1x128 32 := iota .tc S1x128 32 [1] iota_S1x128_d1_w32

/-- The count accumulator after a point: what it held plus the row of the block's ten counts. -/
def accCounts (x0 : Vec F S1x4096x128 .f32) (prev : Vec F S1x128 .f32) : FVec F S1x128 .f32 :=
  k0_pay62 lanes
    (k0_pay56 (k0_pay6 x0) lanes
      (k0_pay46 lanes
        (k0_pay39 (k0_pay6 x0) lanes
          (k0_pay36 (k0_pay6 x0) lanes
            (k0_pay23 (k0_pay6 x0) lanes
              (k0_pay19 (k0_pay6 x0) lanes k0_pay8 (k0_pay12 x0)))
            (k0_pay27 (k0_pay6 x0))))
        (k0_pay43 (k0_pay6 x0)))
      (k0_pay50 (k0_pay6 x0)) (k0_pay53 lanes))
    (k0_pay60 (k0_pay6 x0)) prev

/-- The confidence accumulator after a point: what it held plus the row of the block's ten confidence sums. -/
def accConf (x0 : Vec F S1x4096x128 .f32) (prev : Vec F S1x128 .f32) : FVec F S1x128 .f32 :=
  k0_pay63 (k0_pay5 x0) lanes
    (k0_pay57 (k0_pay5 x0) (k0_pay6 x0) lanes
      (k0_pay47 (k0_pay5 x0) lanes
        (k0_pay40 (k0_pay5 x0) (k0_pay6 x0) lanes
          (k0_pay30 lanes
            (k0_pay24 (k0_pay5 x0) (k0_pay6 x0) lanes
              (k0_pay20 (k0_pay5 x0) (k0_pay6 x0) lanes k0_pay9 (k0_pay13 x0)))
            (k0_pay28 (k0_pay5 x0) (k0_pay6 x0)))
          (k0_pay33 (k0_pay5 x0) (k0_pay6 x0)) (k0_pay35 lanes))
        (k0_pay42 (k0_pay6 x0)) k0_pay44)
      (k0_pay51 (k0_pay5 x0) (k0_pay6 x0)) (k0_pay53 lanes))
    (k0_pay59 (k0_pay6 x0)) prev

/-- The label accumulator after a point: what it held plus the row of the block's ten label sums. -/
def accPos (x0 : Vec F S1x4096x128 .f32) (x1 : Vec F S1x4096x128 .i32) (prev : Vec F S1x128 .f32) : FVec F S1x128 .f32 :=
  k0_pay64 (k0_pay7 x1) lanes
    (k0_pay58 (k0_pay6 x0) (k0_pay7 x1) lanes
      (k0_pay48 (k0_pay7 x1) lanes
        (k0_pay41 (k0_pay6 x0) (k0_pay7 x1) lanes
          (k0_pay31 (k0_pay7 x1) lanes
            (k0_pay25 (k0_pay6 x0) (k0_pay7 x1) lanes
              (k0_pay15 (k0_pay7 x1) lanes k0_pay10 (k0_pay11 x0))
              (k0_pay17 (k0_pay6 x0) (k0_pay7 x1)) (k0_pay18 lanes))
            (k0_pay26 (k0_pay6 x0)))
          (k0_pay34 (k0_pay6 x0) (k0_pay7 x1)) (k0_pay35 lanes))
        (k0_pay42 (k0_pay6 x0)))
      (k0_pay52 (k0_pay6 x0) (k0_pay7 x1)) (k0_pay53 lanes))
    (k0_pay59 (k0_pay6 x0)) prev

/-! ## One entry of the block -/

/-- The body's confidence of entry (r, q) of its block is the confidence of that logit. -/
theorem confBlock_apply (x0 : Vec Ideal S1x4096x128 .f32) (r : Fin 4096) (q : Fin 128) :
    k0_pay5 (F := Ideal) x0 (ix2 r q) = Cert.Hist.conf (x0 (ix3 (0 : Fin 1) r q)) := by
  have e := shapeCast_1ab_ab_apply x0 shapeCasts_S1x4096x128_S4096x128 r q
  unfold k0_pay5 Cert.Hist.conf
  rw [← e]
  rfl

/-- The body's bin word of entry (r, q) of its block is the bin word of that logit. -/
theorem binBlock_apply (x0 : Vec Ideal S1x4096x128 .f32) (r : Fin 4096) (q : Fin 128) :
    k0_pay6 (F := Ideal) x0 (ix2 r q) = Cert.Hist.binOf (x0 (ix3 (0 : Fin 1) r q)) := by
  have e := confBlock_apply x0 r q
  unfold k0_pay6 Cert.Hist.binOf
  show IntOp.minsi 9#32 (IntOp.maxsi 0#32 (IntOp.subi (FloatOps.fptosi 32 (FloatOps.ceil (FloatOps.mulf
    (k0_pay5 (F := Ideal) x0 (ix2 r q)) (Scalar.ofBits .f32 0x41200000#32)))) 1#32)) = _
  rw [e]

/-- The body's label of entry (r, q) of its block, as a number. -/
theorem labelBlock_apply (x1 : Vec Ideal S1x4096x128 .i32) (r : Fin 4096) (q : Fin 128) :
    k0_pay7 (F := Ideal) x1 (ix2 r q) = Cert.Hist.labelOf (x1 (ix3 (0 : Fin 1) r q)) := by
  have e := shapeCast_1ab_ab_apply x1 shapeCasts_S1x4096x128_S4096x128 r q
  unfold k0_pay7 Cert.Hist.labelOf
  rw [← e]
  rfl

/-! ## The three rows at a lane -/

/-- A block's total at the kernel's own shapes: lanes first, then rows, is the sum over all rows and lanes. -/
theorem blockTotal_S (v : FVec Ideal S4096x128 .f32) (hφ1 : FKind.Formats .f32) (hacc1 : (0x00000000#32 : BitVec 32) = 0x00000000#32)
    (hφ2 : FKind.Formats .f32) (hacc2 : (0x00000000#32 : BitVec 32) = 0x00000000#32) (j : S1.Idx) :
    multiReduction .add [0] S1
        (shapeCast S4096x1 (multiReduction .add [1] S4096 v 0x00000000#32 reduces_S4096x128_S4096 hφ1 hacc1) shapeCasts_S4096_S4096x1)
        0x00000000#32 reduces_S4096x1_S1 hφ2 hacc2 j
      = ∑ r : Fin 4096, ∑ q : Fin 128, (v (ix2 r q) : EReal) :=
  Cert.Hist.Rows.blockTotal v _ _ hφ1 hacc1 _ _ hφ2 hacc2 j

/-- The count row at lane l: what the accumulator held there plus, by the select chain on l, the block's count of the
    lane's bin. -/
theorem accCounts_apply (x0 : Vec Ideal S1x4096x128 .f32) (prev : Vec Ideal S1x128 .f32) (l : Fin 128) :
    accCounts (F := Ideal) x0 prev (ix2 (0 : Fin 1) l)
      = (prev (ix2 (0 : Fin 1) l) : EReal) + Cert.Hist.rowChain (BitVec.ofNat 32 l.val)
          (Cert.Hist.maskedSum (fun r q => Cert.Hist.binOf (x0 (ix3 (0 : Fin 1) r q))) (fun _ _ => (1 : EReal))) := by
  unfold accCounts
  simp only [k0_pay1, k0_pay2, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [shapeCast_self, addf_apply, select_apply, Cert.Hist.Rows.cmpi_apply, broadcast_apply, sitofp_apply, extui_apply,
    Cert.Hist.Rows.broadcastTo_11_1Q, Cert.Hist.Rows.shapeCast_1_11, Cert.Hist.Rows.iota_row,
    binBlock_apply, confBlock_apply, labelBlock_apply, Cert.Hist.Rows.select_cmpi_eq, Cert.Hist.Rows.sitofp_mask,
    Scalar.ofBits, Ideal.ofBits_def, Ideal.ofBits_zero_f32, Cert.Hist.rowChain_eq, Cert.Hist.maskedSum]
  iterate 10 rw [blockTotal_S]
  simp only [sitofp_apply, extui_apply, select_apply, Cert.Hist.Rows.cmpi_apply, broadcast_apply, binBlock_apply, confBlock_apply,
    labelBlock_apply, Cert.Hist.Rows.sitofp_mask, Cert.Hist.Rows.select_cmpi_eq, Scalar.ofBits, Ideal.ofBits_def, Ideal.ofBits_zero_f32,
    Cert.Hist.rowChain_eq, Cert.Hist.maskedSum]

/-- The confidence row at lane l: what the accumulator held there plus, by the select chain on l, the block's
    confidence sum of the lane's bin. -/
theorem accConf_apply (x0 : Vec Ideal S1x4096x128 .f32) (prev : Vec Ideal S1x128 .f32) (l : Fin 128) :
    accConf (F := Ideal) x0 prev (ix2 (0 : Fin 1) l)
      = (prev (ix2 (0 : Fin 1) l) : EReal) + Cert.Hist.rowChain (BitVec.ofNat 32 l.val)
          (Cert.Hist.maskedSum (fun r q => Cert.Hist.binOf (x0 (ix3 (0 : Fin 1) r q)))
            (fun r q => Cert.Hist.conf (x0 (ix3 (0 : Fin 1) r q)))) := by
  unfold accConf
  simp only [k0_pay1, k0_pay2, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [shapeCast_self, addf_apply, select_apply, Cert.Hist.Rows.cmpi_apply, broadcast_apply, sitofp_apply, extui_apply,
    Cert.Hist.Rows.broadcastTo_11_1Q, Cert.Hist.Rows.shapeCast_1_11, Cert.Hist.Rows.iota_row,
    binBlock_apply, confBlock_apply, labelBlock_apply, Cert.Hist.Rows.select_cmpi_eq, Cert.Hist.Rows.sitofp_mask,
    Scalar.ofBits, Ideal.ofBits_def, Ideal.ofBits_zero_f32, Cert.Hist.rowChain_eq, Cert.Hist.maskedSum]
  iterate 10 rw [blockTotal_S]
  simp only [sitofp_apply, extui_apply, select_apply, Cert.Hist.Rows.cmpi_apply, broadcast_apply, binBlock_apply, confBlock_apply,
    labelBlock_apply, Cert.Hist.Rows.sitofp_mask, Cert.Hist.Rows.select_cmpi_eq, Scalar.ofBits, Ideal.ofBits_def, Ideal.ofBits_zero_f32,
    Cert.Hist.rowChain_eq, Cert.Hist.maskedSum]

/-- The label row at lane l: what the accumulator held there plus, by the select chain on l, the block's label sum of
    the lane's bin. -/
theorem accPos_apply (x0 : Vec Ideal S1x4096x128 .f32) (x1 : Vec Ideal S1x4096x128 .i32) (prev : Vec Ideal S1x128 .f32) (l : Fin 128) :
    accPos (F := Ideal) x0 x1 prev (ix2 (0 : Fin 1) l)
      = (prev (ix2 (0 : Fin 1) l) : EReal) + Cert.Hist.rowChain (BitVec.ofNat 32 l.val)
          (Cert.Hist.maskedSum (fun r q => Cert.Hist.binOf (x0 (ix3 (0 : Fin 1) r q)))
            (fun r q => Cert.Hist.labelOf (x1 (ix3 (0 : Fin 1) r q)))) := by
  unfold accPos
  simp only [k0_pay1, k0_pay2, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [shapeCast_self, addf_apply, select_apply, Cert.Hist.Rows.cmpi_apply, broadcast_apply, sitofp_apply, extui_apply,
    Cert.Hist.Rows.broadcastTo_11_1Q, Cert.Hist.Rows.shapeCast_1_11, Cert.Hist.Rows.iota_row,
    binBlock_apply, confBlock_apply, labelBlock_apply, Cert.Hist.Rows.select_cmpi_eq, Cert.Hist.Rows.sitofp_mask,
    Scalar.ofBits, Ideal.ofBits_def, Ideal.ofBits_zero_f32, Cert.Hist.rowChain_eq, Cert.Hist.maskedSum]
  iterate 10 rw [blockTotal_S]
  simp only [sitofp_apply, extui_apply, select_apply, Cert.Hist.Rows.cmpi_apply, broadcast_apply, binBlock_apply, confBlock_apply,
    labelBlock_apply, Cert.Hist.Rows.sitofp_mask, Cert.Hist.Rows.select_cmpi_eq, Scalar.ofBits, Ideal.ofBits_def, Ideal.ofBits_zero_f32,
    Cert.Hist.rowChain_eq, Cert.Hist.maskedSum]

end Cert.KernelIdeal.Rows

end
-- ==== Proof.KPieces.lean ====
/-
  What each case of the kernel body leaves behind, named.

  The body has three cases by its position in a half's run of thirty-two grid points: the first point resets the three
  accumulators to zero before adding its block's rows; a middle point adds its rows to what the point before left;
  the last point does the same and then stores the three accumulators, stacked, as the half's output block. In every
  case an accumulator ends as the row function of KRows over the loaded blocks and the previous contents (zeros at
  the first point), and the output block at the last point is the stack of the three.
-/
import proofs.«176428_j44813688766553_1_alg».proof.Proof.Gen.KernelIdeal.Frame
import proofs.«176428_j44813688766553_1_alg».proof.Proof.KRows
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Cert.KernelIdeal.Rows

variable {F : FTy → Type} [FloatOps F]

/-- The offsets of a whole-buffer rectangle are zero. -/
theorem hz2 : (![0, 0] : Fin 2 → Nat) = fun _ => 0 := by funext a; fin_cases a <;> rfl
theorem hz3 : (![0, 0, 0] : Fin 3 → Nat) = fun _ => 0 := by funext a; fin_cases a <;> rfl

/-- Case A (the first point of a half) resets scratch 0 and leaves in it the accumulated row over zeros. -/
theorem sout0_A_0_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i) (hc1 : ¬cond0_1 i)
    (x0 : Vec F S1x4096x128 .f32) (x1 : Vec F S1x4096x128 .i32) :
    sout0_A_0 c i arg2 harg2 arg3 harg3 arg4 harg4 arg5 harg5 arg6 harg6 arg7 harg7 hc0 hc1 x0 x1 = accCounts x0 k0_pay2 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x128) hz2]
  simp only [View.readAt_eq_ld, harg2.read_unread, harg3.read_unread, View.ld_unit_zero (S := S1x4096x128) hz3,
    View.readCov_unit_zero (S := S1x128) _ hz2]
  rfl

/-- Case A (the first point of a half) resets scratch 1 and leaves in it the accumulated row over zeros. -/
theorem sout0_A_1_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i) (hc1 : ¬cond0_1 i)
    (x0 : Vec F S1x4096x128 .f32) (x1 : Vec F S1x4096x128 .i32) :
    sout0_A_1 c i arg2 harg2 arg3 harg3 arg4 harg4 arg5 harg5 arg6 harg6 arg7 harg7 hc0 hc1 x0 x1 = accConf x0 k0_pay3 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x128) hz2]
  simp only [View.readAt_eq_ld, harg2.read_unread, harg3.read_unread, View.ld_unit_zero (S := S1x4096x128) hz3,
    View.readCov_unit_zero (S := S1x128) _ hz2]
  rfl

/-- Case A (the first point of a half) resets scratch 2 and leaves in it the accumulated row over zeros. -/
theorem sout0_A_2_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i) (hc1 : ¬cond0_1 i)
    (x0 : Vec F S1x4096x128 .f32) (x1 : Vec F S1x4096x128 .i32) :
    sout0_A_2 c i arg2 harg2 arg3 harg3 arg4 harg4 arg5 harg5 arg6 harg6 arg7 harg7 hc0 hc1 x0 x1 = accPos x0 x1 k0_pay4 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1x128) hz2]
  simp only [View.readAt_eq_ld, harg2.read_unread, harg3.read_unread, View.ld_unit_zero (S := S1x4096x128) hz3,
    View.readCov_unit_zero (S := S1x128) _ hz2]
  rfl

/-- Case B leaves in scratch 0 the accumulated row over what the point before left. -/
theorem sout0_B_0_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : ¬cond0_1 i)
    (x0 : Vec F S1x4096x128 .f32) (x1 : Vec F S1x4096x128 .i32) (xs0 xs1 xs2 : Vec F S1x128 .f32) :
    sout0_B_0 c i arg2 harg2 arg3 harg3 arg4 harg4 arg5 harg5 arg6 harg6 arg7 harg7 hc0 hc1 x0 x1 xs0 xs1 xs2 = accCounts x0 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread,
    View.ld_unit_zero (S := S1x4096x128) hz3, View.ld_unit_zero (S := S1x128) hz2]
  rfl

/-- Case B leaves in scratch 1 the accumulated row over what the point before left. -/
theorem sout0_B_1_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : ¬cond0_1 i)
    (x0 : Vec F S1x4096x128 .f32) (x1 : Vec F S1x4096x128 .i32) (xs0 xs1 xs2 : Vec F S1x128 .f32) :
    sout0_B_1 c i arg2 harg2 arg3 harg3 arg4 harg4 arg5 harg5 arg6 harg6 arg7 harg7 hc0 hc1 x0 x1 xs0 xs1 xs2 = accConf x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread,
    View.ld_unit_zero (S := S1x4096x128) hz3, View.ld_unit_zero (S := S1x128) hz2]
  rfl

/-- Case B leaves in scratch 2 the accumulated row over what the point before left. -/
theorem sout0_B_2_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : ¬cond0_1 i)
    (x0 : Vec F S1x4096x128 .f32) (x1 : Vec F S1x4096x128 .i32) (xs0 xs1 xs2 : Vec F S1x128 .f32) :
    sout0_B_2 c i arg2 harg2 arg3 harg3 arg4 harg4 arg5 harg5 arg6 harg6 arg7 harg7 hc0 hc1 x0 x1 xs0 xs1 xs2 = accPos x0 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread,
    View.ld_unit_zero (S := S1x4096x128) hz3, View.ld_unit_zero (S := S1x128) hz2]
  rfl

/-- Case C leaves in scratch 0 the accumulated row over what the point before left. -/
theorem sout0_C_0_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x4096x128 .f32) (x1 : Vec F S1x4096x128 .i32) (xs0 xs1 xs2 : Vec F S1x128 .f32) :
    sout0_C_0 c i arg2 harg2 arg3 harg3 arg4 harg4 arg5 harg5 arg6 harg6 arg7 harg7 hc0 hc1 x0 x1 xs0 xs1 xs2 = accCounts x0 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x4096x128) hz3, View.ld_unit_zero (S := S1x128) hz2]
  rfl

/-- Case C leaves in scratch 1 the accumulated row over what the point before left. -/
theorem sout0_C_1_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x4096x128 .f32) (x1 : Vec F S1x4096x128 .i32) (xs0 xs1 xs2 : Vec F S1x128 .f32) :
    sout0_C_1 c i arg2 harg2 arg3 harg3 arg4 harg4 arg5 harg5 arg6 harg6 arg7 harg7 hc0 hc1 x0 x1 xs0 xs1 xs2 = accConf x0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x4096x128) hz3, View.ld_unit_zero (S := S1x128) hz2]
  rfl

/-- Case C leaves in scratch 2 the accumulated row over what the point before left. -/
theorem sout0_C_2_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x4096x128 .f32) (x1 : Vec F S1x4096x128 .i32) (xs0 xs1 xs2 : Vec F S1x128 .f32) :
    sout0_C_2 c i arg2 harg2 arg3 harg3 arg4 harg4 arg5 harg5 arg6 harg6 arg7 harg7 hc0 hc1 x0 x1 xs0 xs1 xs2 = accPos x0 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x4096x128) hz3, View.ld_unit_zero (S := S1x128) hz2]
  rfl

/-- Case C (the last point of a half) stores the three accumulators, as it has just left them, stacked as the output
    block. -/
theorem out0_C_2_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (hc1 : cond0_1 i)
    (x0 : Vec F S1x4096x128 .f32) (x1 : Vec F S1x4096x128 .i32) (xs0 xs1 xs2 : Vec F S1x128 .f32) :
    out0_C_2 c i arg2 harg2 arg3 harg3 arg4 harg4 arg5 harg5 arg6 harg6 arg7 harg7 hc0 hc1 x0 x1 xs0 xs1 xs2 = k0_pay1 (accCounts x0 xs0) (accConf x0 xs1) (accPos x0 x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3]
  simp only [View.readCov_unit_zero (S := S1x128) _ hz2, View.readAt_eq_ld, harg2.read_unread, harg3.read_unread, harg5.read_unread,
    harg6.read_unread, harg7.read_unread, View.ld_unit_zero (S := S1x4096x128) hz3, View.ld_unit_zero (S := S1x128) hz2]
  rfl

end Cert.KernelIdeal.Gen

end
-- ==== Proof.RunSum.lean ====
/-
  The running sum of a half's run of grid points. Points come in runs of thirty-two; an accumulator is reset at the
  first point of a run and then takes one addend per point, so after point n it holds the addends of the points from
  the run's first, n - n % 32, up to n. At the run's last point that is all thirty-two addends of the run.
-/
import Mathlib.Algebra.BigOperators.Intervals
import Mathlib.Algebra.BigOperators.Fin
import Mathlib.Tactic.Ring
import Mathlib.Tactic.Linarith

namespace Cert.Hist

open scoped BigOperators

variable {β : Type*} [AddCommMonoid β]

/-- The addends of the run's points up to point `n`. -/
def runSum (f : ℕ → β) (n : ℕ) : β := ∑ s ∈ Finset.range (n % 32 + 1), f (n - n % 32 + s)

/-- At the first point of a run only that point's addend. -/
theorem runSum_reset (f : ℕ → β) (n : ℕ) (h : n % 32 = 0) : runSum f n = f n := by
  unfold runSum
  rw [h, Nat.zero_add, Finset.sum_range_one, Nat.sub_zero, Nat.add_zero]

/-- At any other point the running sum of the point before plus this point's addend. -/
theorem runSum_step (f : ℕ → β) (n : ℕ) (h : ¬(n + 1) % 32 = 0) : runSum f (n + 1) = runSum f n + f (n + 1) := by
  unfold runSum
  have h1 : (n + 1) % 32 = n % 32 + 1 := by omega
  have h2 : n + 1 - (n + 1) % 32 = n - n % 32 := by omega
  rw [h2, h1, Finset.sum_range_succ]
  congr 2
  omega

/-- At the last point of a run, all thirty-two addends of the run, the run's first point being 32 · (n / 32). -/
theorem runSum_last (f : ℕ → β) (n : ℕ) (h : n % 32 = 31) : runSum f n = ∑ s : Fin 32, f (32 * (n / 32) + s.val) := by
  unfold runSum
  have h2 : n - n % 32 = 32 * (n / 32) := by omega
  rw [h2, h, Finset.sum_range]

end Cert.Hist
-- ==== Proof.KInv.lean ====
/-
  What the three accumulators hold after every grid point, at the ideal values.

  After point n, lane l of the count accumulator holds the select chain on l over bin ↦ the sum, over the points of n's
  run of thirty-two from the run's first point up to n, of the block's count for that bin; the same for the confidence
  sums and the label sums. By induction on n: the first point of a run resets to zero and adds its row; every other
  point adds its row to what the point before left, and the chain is additive.
-/
import proofs.«176428_j44813688766553_1_alg».proof.Proof.KPieces
import proofs.«176428_j44813688766553_1_alg».proof.Proof.RunSum

set_option maxRecDepth 16384

noncomputable section

namespace Cert.KernelIdeal.Inv

open Cert.KernelIdeal Cert.KernelIdeal.Gen Cert.KernelIdeal.Rows
open Idealize.ShloMosaic Idealize.ShloMosaic.TcCoe Idealize.ShloMosaic.ValueIdx Idealize.SL.Sem
open scoped BigOperators

variable (m : (ℓ : Loc nD τ sig) → Buf (Elt Ideal) ℓ)

/-- The logits block and the labels block of a grid point, at their literal shapes. -/
abbrev xb (c : Dev nD) (t : Fin cfg0.N) : Vec Ideal S1x4096x128 .f32 := iblk m c 0 t
abbrev yb (c : Dev nD) (t : Fin cfg0.N) : Vec Ideal S1x4096x128 .i32 := iblk m c 1 t

/-- The three reset rows are zero at every lane. -/
theorem zero2 (y : S1x128.Idx) : (k0_pay2 (F := Ideal) y : EReal) = 0 := by
  unfold k0_pay2
  simp only [shapeCast_self, broadcast_apply, Scalar.ofBits, Ideal.ofBits_def, Ideal.ofBits_zero_f32]
theorem zero3 (y : S1x128.Idx) : (k0_pay3 (F := Ideal) y : EReal) = 0 := by
  unfold k0_pay3
  simp only [shapeCast_self, broadcast_apply, Scalar.ofBits, Ideal.ofBits_def, Ideal.ofBits_zero_f32]
theorem zero4 (y : S1x128.Idx) : (k0_pay4 (F := Ideal) y : EReal) = 0 := by
  unfold k0_pay4
  simp only [shapeCast_self, broadcast_apply, Scalar.ofBits, Ideal.ofBits_def, Ideal.ofBits_zero_f32]

/-- Point k's addend to the count of bin b: the block's count; zero past the grid. -/
def add0 (c : Dev nD) (b : BitVec 32) (k : ℕ) : EReal :=
  if h : k < cfg0.N then
    Cert.Hist.maskedSum (fun r q => Cert.Hist.binOf (xb m c ⟨k, h⟩ (ix3 (0 : Fin 1) r q))) (fun r q => (1 : EReal)) b
  else 0

/-- At the first point of a run the running sum is that point's addend. -/
theorem add0_reset (c : Dev nD) (k : ℕ) (hk : k < cfg0.N) (h0 : k % 32 = 0) :
    (fun b => Cert.Hist.runSum (add0 m c b) k)
      = Cert.Hist.maskedSum (fun r q => Cert.Hist.binOf (xb m c ⟨k, hk⟩ (ix3 (0 : Fin 1) r q))) (fun r q => (1 : EReal)) := by
  funext b
  rw [Cert.Hist.runSum_reset _ _ h0]
  unfold add0
  rw [dif_pos hk]

/-- At any other point the running sum of the point before plus this point's addend. -/
theorem add0_step (c : Dev nD) (n : ℕ) (hn : n + 1 < cfg0.N) (h0 : ¬(n + 1) % 32 = 0) :
    (fun b => Cert.Hist.runSum (add0 m c b) n
        + Cert.Hist.maskedSum (fun r q => Cert.Hist.binOf (xb m c ⟨n + 1, hn⟩ (ix3 (0 : Fin 1) r q))) (fun r q => (1 : EReal)) b)
      = fun b => Cert.Hist.runSum (add0 m c b) (n + 1) := by
  funext b
  have e : add0 m c b (n + 1)
      = Cert.Hist.maskedSum (fun r q => Cert.Hist.binOf (xb m c ⟨n + 1, hn⟩ (ix3 (0 : Fin 1) r q))) (fun r q => (1 : EReal)) b :=
    dif_pos hn
  rw [Cert.Hist.runSum_step _ _ h0, e]

/-- Point k's addend to the confidence sum of bin b; zero past the grid. -/
def add1 (c : Dev nD) (b : BitVec 32) (k : ℕ) : EReal :=
  if h : k < cfg0.N then
    Cert.Hist.maskedSum (fun r q => Cert.Hist.binOf (xb m c ⟨k, h⟩ (ix3 (0 : Fin 1) r q))) (fun r q => Cert.Hist.conf (xb m c ⟨k, h⟩ (ix3 (0 : Fin 1) r q))) b
  else 0

/-- At the first point of a run the running sum is that point's addend. -/
theorem add1_reset (c : Dev nD) (k : ℕ) (hk : k < cfg0.N) (h0 : k % 32 = 0) :
    (fun b => Cert.Hist.runSum (add1 m c b) k)
      = Cert.Hist.maskedSum (fun r q => Cert.Hist.binOf (xb m c ⟨k, hk⟩ (ix3 (0 : Fin 1) r q))) (fun r q => Cert.Hist.conf (xb m c ⟨k, hk⟩ (ix3 (0 : Fin 1) r q))) := by
  funext b
  rw [Cert.Hist.runSum_reset _ _ h0]
  unfold add1
  rw [dif_pos hk]

/-- At any other point the running sum of the point before plus this point's addend. -/
theorem add1_step (c : Dev nD) (n : ℕ) (hn : n + 1 < cfg0.N) (h0 : ¬(n + 1) % 32 = 0) :
    (fun b => Cert.Hist.runSum (add1 m c b) n
        + Cert.Hist.maskedSum (fun r q => Cert.Hist.binOf (xb m c ⟨n + 1, hn⟩ (ix3 (0 : Fin 1) r q))) (fun r q => Cert.Hist.conf (xb m c ⟨n + 1, hn⟩ (ix3 (0 : Fin 1) r q))) b)
      = fun b => Cert.Hist.runSum (add1 m c b) (n + 1) := by
  funext b
  have e : add1 m c b (n + 1)
      = Cert.Hist.maskedSum (fun r q => Cert.Hist.binOf (xb m c ⟨n + 1, hn⟩ (ix3 (0 : Fin 1) r q))) (fun r q => Cert.Hist.conf (xb m c ⟨n + 1, hn⟩ (ix3 (0 : Fin 1) r q))) b :=
    dif_pos hn
  rw [Cert.Hist.runSum_step _ _ h0, e]

/-- Point k's addend to the label sum of bin b; zero past the grid. -/
def add2 (c : Dev nD) (b : BitVec 32) (k : ℕ) : EReal :=
  if h : k < cfg0.N then
    Cert.Hist.maskedSum (fun r q => Cert.Hist.binOf (xb m c ⟨k, h⟩ (ix3 (0 : Fin 1) r q))) (fun r q => Cert.Hist.labelOf (yb m c ⟨k, h⟩ (ix3 (0 : Fin 1) r q))) b
  else 0

/-- At the first point of a run the running sum is that point's addend. -/
theorem add2_reset (c : Dev nD) (k : ℕ) (hk : k < cfg0.N) (h0 : k % 32 = 0) :
    (fun b => Cert.Hist.runSum (add2 m c b) k)
      = Cert.Hist.maskedSum (fun r q => Cert.Hist.binOf (xb m c ⟨k, hk⟩ (ix3 (0 : Fin 1) r q))) (fun r q => Cert.Hist.labelOf (yb m c ⟨k, hk⟩ (ix3 (0 : Fin 1) r q))) := by
  funext b
  rw [Cert.Hist.runSum_reset _ _ h0]
  unfold add2
  rw [dif_pos hk]

/-- At any other point the running sum of the point before plus this point's addend. -/
theorem add2_step (c : Dev nD) (n : ℕ) (hn : n + 1 < cfg0.N) (h0 : ¬(n + 1) % 32 = 0) :
    (fun b => Cert.Hist.runSum (add2 m c b) n
        + Cert.Hist.maskedSum (fun r q => Cert.Hist.binOf (xb m c ⟨n + 1, hn⟩ (ix3 (0 : Fin 1) r q))) (fun r q => Cert.Hist.labelOf (yb m c ⟨n + 1, hn⟩ (ix3 (0 : Fin 1) r q))) b)
      = fun b => Cert.Hist.runSum (add2 m c b) (n + 1) := by
  funext b
  have e : add2 m c b (n + 1)
      = Cert.Hist.maskedSum (fun r q => Cert.Hist.binOf (xb m c ⟨n + 1, hn⟩ (ix3 (0 : Fin 1) r q))) (fun r q => Cert.Hist.labelOf (yb m c ⟨n + 1, hn⟩ (ix3 (0 : Fin 1) r q))) b :=
    dif_pos hn
  rw [Cert.Hist.runSum_step _ _ h0, e]

/-- THE INVARIANT: after point n each accumulator holds, lane by lane, the select chain over the running sums of its
    statistic. -/
theorem scratch_inv (c : Dev nD) : ∀ (n : ℕ) (hn : n < cfg0.N) (l : Fin 128),
    ((outsAt0 m c n hn).2.1 (ix2 (0 : Fin 1) l) : EReal)
        = Cert.Hist.rowChain (BitVec.ofNat 32 l.val) (fun b => Cert.Hist.runSum (add0 m c b) n)
    ∧ ((outsAt0 m c n hn).2.2.1 (ix2 (0 : Fin 1) l) : EReal)
        = Cert.Hist.rowChain (BitVec.ofNat 32 l.val) (fun b => Cert.Hist.runSum (add1 m c b) n)
    ∧ ((outsAt0 m c n hn).2.2.2 (ix2 (0 : Fin 1) l) : EReal)
        = Cert.Hist.rowChain (BitVec.ofNat 32 l.val) (fun b => Cert.Hist.runSum (add2 m c b) n) := by
  -- the first point of a run, at any position
  have first : ∀ (k : ℕ) (hk : k < cfg0.N) (h0 : k % 32 = 0) (l : Fin 128),
      ((outsAt0 m c k hk).2.1 (ix2 (0 : Fin 1) l) : EReal)
          = Cert.Hist.rowChain (BitVec.ofNat 32 l.val) (fun b => Cert.Hist.runSum (add0 m c b) k)
      ∧ ((outsAt0 m c k hk).2.2.1 (ix2 (0 : Fin 1) l) : EReal)
          = Cert.Hist.rowChain (BitVec.ofNat 32 l.val) (fun b => Cert.Hist.runSum (add1 m c b) k)
      ∧ ((outsAt0 m c k hk).2.2.2 (ix2 (0 : Fin 1) l) : EReal)
          = Cert.Hist.rowChain (BitVec.ofNat 32 l.val) (fun b => Cert.Hist.runSum (add2 m c b) k) := by
    intro k hk h0 l
    have h1 : ¬k % 32 = 31 := by omega
    have hc0 : cond0_0 (grid0.coords (⟨k, hk⟩ : Fin cfg0.N)) := (hcond0_0 ⟨k, hk⟩).mpr h0
    have hc1 : ¬cond0_1 (grid0.coords (⟨k, hk⟩ : Fin cfg0.N)) := fun h => h1 ((hcond0_1 ⟨k, hk⟩).mp h)
    have hA : outsAt0 m c k hk = _ := outsAt0_A m c ⟨k, hk⟩ h0 h1
    rw [hA]
    dsimp only
    refine ⟨?_, ?_, ?_⟩
    · refine (congrFun (sout0_A_0_eq (F := Ideal) c (grid0.coords ⟨k, hk⟩) (ms0_0 ⟨k, hk⟩) (hs0_0 ⟨k, hk⟩) (ms0_1 ⟨k, hk⟩) (hs0_1 ⟨k, hk⟩) (ms0_2 ⟨k, hk⟩) (hs0_2 ⟨k, hk⟩) scM0_0 (Memref.isWhole_whole _) scM0_1 (Memref.isWhole_whole _) scM0_2 (Memref.isWhole_whole _) hc0 hc1 (xb m c ⟨k, hk⟩) (yb m c ⟨k, hk⟩)) (ix2 (0 : Fin 1) l)).trans ?_
      rw [accCounts_apply, zero2, zero_add, add0_reset m c k hk h0]
    · refine (congrFun (sout0_A_1_eq (F := Ideal) c (grid0.coords ⟨k, hk⟩) (ms0_0 ⟨k, hk⟩) (hs0_0 ⟨k, hk⟩) (ms0_1 ⟨k, hk⟩) (hs0_1 ⟨k, hk⟩) (ms0_2 ⟨k, hk⟩) (hs0_2 ⟨k, hk⟩) scM0_0 (Memref.isWhole_whole _) scM0_1 (Memref.isWhole_whole _) scM0_2 (Memref.isWhole_whole _) hc0 hc1 (xb m c ⟨k, hk⟩) (yb m c ⟨k, hk⟩)) (ix2 (0 : Fin 1) l)).trans ?_
      rw [accConf_apply, zero3, zero_add, add1_reset m c k hk h0]
    · refine (congrFun (sout0_A_2_eq (F := Ideal) c (grid0.coords ⟨k, hk⟩) (ms0_0 ⟨k, hk⟩) (hs0_0 ⟨k, hk⟩) (ms0_1 ⟨k, hk⟩) (hs0_1 ⟨k, hk⟩) (ms0_2 ⟨k, hk⟩) (hs0_2 ⟨k, hk⟩) scM0_0 (Memref.isWhole_whole _) scM0_1 (Memref.isWhole_whole _) scM0_2 (Memref.isWhole_whole _) hc0 hc1 (xb m c ⟨k, hk⟩) (yb m c ⟨k, hk⟩)) (ix2 (0 : Fin 1) l)).trans ?_
      rw [accPos_apply, zero4, zero_add, add2_reset m c k hk h0]
  intro n
  induction n with
  | zero => intro hn l; exact first 0 hn (Nat.zero_mod _) l
  | succ n ih =>
    intro hn l
    by_cases h0 : (n + 1) % 32 = 0
    · exact first (n + 1) hn h0 l
    · by_cases h1 : (n + 1) % 32 = 31
      · have hc0 : ¬cond0_0 (grid0.coords (⟨n + 1, hn⟩ : Fin cfg0.N)) := fun h => h0 ((hcond0_0 ⟨n + 1, hn⟩).mp h)
        have hc1 : cond0_1 (grid0.coords (⟨n + 1, hn⟩ : Fin cfg0.N)) := (hcond0_1 ⟨n + 1, hn⟩).mpr h1
        have hC : outsAt0 m c (n + 1) hn = _ := outsAt0_C m c ⟨n + 1, hn⟩ h0 h1
        rw [hC]
        dsimp only
        obtain ⟨i0, i1, i2⟩ := ih (Nat.lt_of_succ_lt hn) l
        refine ⟨?_, ?_, ?_⟩
        · refine (congrFun (sout0_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hc0 hc1 (xb m c ⟨n + 1, hn⟩) (yb m c ⟨n + 1, hn⟩) (outsAt0 m c n (Nat.lt_of_succ_lt hn)).2.1 (outsAt0 m c n (Nat.lt_of_succ_lt hn)).2.2.1 (outsAt0 m c n (Nat.lt_of_succ_lt hn)).2.2.2) (ix2 (0 : Fin 1) l)).trans ?_
          rw [accCounts_apply, i0, Cert.Hist.rowChain_add, add0_step m c n hn h0]
        · refine (congrFun (sout0_C_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hc0 hc1 (xb m c ⟨n + 1, hn⟩) (yb m c ⟨n + 1, hn⟩) (outsAt0 m c n (Nat.lt_of_succ_lt hn)).2.1 (outsAt0 m c n (Nat.lt_of_succ_lt hn)).2.2.1 (outsAt0 m c n (Nat.lt_of_succ_lt hn)).2.2.2) (ix2 (0 : Fin 1) l)).trans ?_
          rw [accConf_apply, i1, Cert.Hist.rowChain_add, add1_step m c n hn h0]
        · refine (congrFun (sout0_C_2_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hc0 hc1 (xb m c ⟨n + 1, hn⟩) (yb m c ⟨n + 1, hn⟩) (outsAt0 m c n (Nat.lt_of_succ_lt hn)).2.1 (outsAt0 m c n (Nat.lt_of_succ_lt hn)).2.2.1 (outsAt0 m c n (Nat.lt_of_succ_lt hn)).2.2.2) (ix2 (0 : Fin 1) l)).trans ?_
          rw [accPos_apply, i2, Cert.Hist.rowChain_add, add2_step m c n hn h0]
      · have hc0 : ¬cond0_0 (grid0.coords (⟨n + 1, hn⟩ : Fin cfg0.N)) := fun h => h0 ((hcond0_0 ⟨n + 1, hn⟩).mp h)
        have hc1 : ¬cond0_1 (grid0.coords (⟨n + 1, hn⟩ : Fin cfg0.N)) := fun h => h1 ((hcond0_1 ⟨n + 1, hn⟩).mp h)
        have hB : outsAt0 m c (n + 1) hn = _ := outsAt0_B m c ⟨n + 1, hn⟩ h0 h1
        rw [hB]
        dsimp only
        obtain ⟨i0, i1, i2⟩ := ih (Nat.lt_of_succ_lt hn) l
        refine ⟨?_, ?_, ?_⟩
        · refine (congrFun (sout0_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hc0 hc1 (xb m c ⟨n + 1, hn⟩) (yb m c ⟨n + 1, hn⟩) (outsAt0 m c n (Nat.lt_of_succ_lt hn)).2.1 (outsAt0 m c n (Nat.lt_of_succ_lt hn)).2.2.1 (outsAt0 m c n (Nat.lt_of_succ_lt hn)).2.2.2) (ix2 (0 : Fin 1) l)).trans ?_
          rw [accCounts_apply, i0, Cert.Hist.rowChain_add, add0_step m c n hn h0]
        · refine (congrFun (sout0_B_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hc0 hc1 (xb m c ⟨n + 1, hn⟩) (yb m c ⟨n + 1, hn⟩) (outsAt0 m c n (Nat.lt_of_succ_lt hn)).2.1 (outsAt0 m c n (Nat.lt_of_succ_lt hn)).2.2.1 (outsAt0 m c n (Nat.lt_of_succ_lt hn)).2.2.2) (ix2 (0 : Fin 1) l)).trans ?_
          rw [accConf_apply, i1, Cert.Hist.rowChain_add, add1_step m c n hn h0]
        · refine (congrFun (sout0_B_2_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hc0 hc1 (xb m c ⟨n + 1, hn⟩) (yb m c ⟨n + 1, hn⟩) (outsAt0 m c n (Nat.lt_of_succ_lt hn)).2.1 (outsAt0 m c n (Nat.lt_of_succ_lt hn)).2.2.1 (outsAt0 m c n (Nat.lt_of_succ_lt hn)).2.2.2) (ix2 (0 : Fin 1) l)).trans ?_
          rw [accPos_apply, i2, Cert.Hist.rowChain_add, add2_step m c n hn h0]

end Cert.KernelIdeal.Inv

end
-- ==== Proof.KBlocks.lean ====
/-
  Where the windows' blocks lie. The two inputs are the flat arrays viewed as [2, 131072, 128]; the block of grid
  point t (half t / 32, step t % 32) is rows (t % 32) · 4096 … of half t / 32, so its entry (r, q) is the flat array's
  entry number (t · 4096 + r) · 128 + q. The output array is [2, 3, 128]; the block of point t is half t / 32 whole,
  written back at the last point of each half, and the two halves' blocks cover the array.
-/
import proofs.«176428_j44813688766553_1_alg».proof.Proof.Gen.KernelIdeal.Frame
import proofs.«176428_j44813688766553_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- A grid point as a number below 64. -/
def pt64 (t : Fin cfg0.N) : Fin 64 := ⟨t.val, lt_of_lt_of_eq t.isLt (show cfg0.N = 64 from N_0)⟩

/-- The logits block and the labels block of grid point `t`, at their literal shapes. -/
abbrev xblk (c : Dev nD) (t : Fin cfg0.N) : Vec Ideal S1x4096x128 .f32 := iblk m c 0 t
abbrev yblk (c : Dev nD) (t : Fin cfg0.N) : Vec Ideal S1x4096x128 .i32 := iblk m c 1 t

/-- The printed index maps, decided over the grid: the two input windows' block of point `t` is block t % 32 of half
    t / 32, the output window's block is half t / 32 whole. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = t.val % 32 ∧ win0_1.index t (2 : Fin 3) = 0
    ∧ win0_2.index t (0 : Fin 3) = t.val / 32 ∧ win0_2.index t (1 : Fin 3) = 0 ∧ win0_2.index t (2 : Fin 3) = 0 :=
  (by decide +kernel : ∀ t : Fin grid0.N, _)

/-- What the region finds in the logits array: the flat argument viewed as [2, 131072, 128]. -/
theorem V_main_v0 (c : Dev nD) :
    (V m c main_v0 : S2x131072x128.Idx → Elt Ideal .f32)
      = shapeCast S2x131072x128 (m ((c : Thread nD τ).loc main_arg0)) shapeCasts_S33554432_S2x131072x128 := by
  show StableHlo.after hostOps0 (fun b => m (c, b)) (Proc.devRef .tc main_v0) = _
  after_results
  rfl

/-- What the region finds in the labels array: the flat argument viewed as [2, 131072, 128]. -/
theorem V_main_v1 (c : Dev nD) :
    (V m c main_v1 : S2x131072x128.Idx → Elt Ideal .i32)
      = shapeCast S2x131072x128 (m ((c : Thread nD τ).loc main_arg1)) shapeCasts_S33554432_S2x131072x128 := by
  show StableHlo.after hostOps0 (fun b => m (c, b)) (Proc.devRef .tc main_v1) = _
  after_results
  rfl

/-- Entry (r, q) of the logits block of point `t` is the flat logits array's entry at that block's flat position. -/
theorem xblk_apply (c : Dev nD) (t : Fin cfg0.N) (r : Fin 4096) (q : Fin 128) :
    xblk m c t (ix3 (0 : Fin 1) r q)
      = m ((c : Thread nD τ).loc main_arg0) (ix1 (Cert.Hist.flatPos (pt64 t) r q)) := by
  obtain ⟨e0, e1, e2, -⟩ := idx_facts t
  show ((cfg0.win 0).blk t).view.read (Elt Ideal) (V m c (Pipeline.arrRef spec0 0)) (ix3 (0 : Fin 1) r q) = _
  show V m c main_v0 (((cfg0.win 0).blk t).view.emb (ix3 (0 : Fin 1) r q)) = _
  rw [V_main_v0]
  refine shapeCast_apply _ _ _ _ ?_
  show ((⟨1, ![33554432]⟩ : Shape).rowMajor (ix1 (Cert.Hist.flatPos (pt64 t) r q))).val
    = ((⟨3, ![2, 131072, 128]⟩ : Shape).rowMajor (((cfg0.win 0).blk t).view.emb (ix3 (0 : Fin 1) r q))).val
  rw [Shape.rowMajor_val_three, Shape.rowMajor_val_one]
  show (t.val * 4096 + r.val) * 128 + q.val
     = ((win0_0.index t (0 : Fin 3) * 1 + 1 * 0) * 131072 + (win0_0.index t (1 : Fin 3) * 4096 + 1 * r.val)) * 128
        + (win0_0.index t (2 : Fin 3) * 128 + 1 * q.val)
  rw [e0, e1, e2]
  omega

/-- Entry (r, q) of the labels block of point `t` is the flat labels array's entry at that block's flat position. -/
theorem yblk_apply (c : Dev nD) (t : Fin cfg0.N) (r : Fin 4096) (q : Fin 128) :
    yblk m c t (ix3 (0 : Fin 1) r q)
      = m ((c : Thread nD τ).loc main_arg1) (ix1 (Cert.Hist.flatPos (pt64 t) r q)) := by
  obtain ⟨-, -, -, e0, e1, e2, -⟩ := idx_facts t
  show ((cfg0.win 1).blk t).view.read (Elt Ideal) (V m c (Pipeline.arrRef spec0 1)) (ix3 (0 : Fin 1) r q) = _
  show V m c main_v1 (((cfg0.win 1).blk t).view.emb (ix3 (0 : Fin 1) r q)) = _
  rw [V_main_v1]
  refine shapeCast_apply _ _ _ _ ?_
  show ((⟨1, ![33554432]⟩ : Shape).rowMajor (ix1 (Cert.Hist.flatPos (pt64 t) r q))).val
    = ((⟨3, ![2, 131072, 128]⟩ : Shape).rowMajor (((cfg0.win 1).blk t).view.emb (ix3 (0 : Fin 1) r q))).val
  rw [Shape.rowMajor_val_three, Shape.rowMajor_val_one]
  show (t.val * 4096 + r.val) * 128 + q.val
     = ((win0_1.index t (0 : Fin 3) * 1 + 1 * 0) * 131072 + (win0_1.index t (1 : Fin 3) * 4096 + 1 * r.val)) * 128
        + (win0_1.index t (2 : Fin 3) * 128 + 1 * q.val)
  rw [e0, e1, e2]
  omega

/-- The output window's block of point `t`, read off an array `G`, is half t / 32 of `G`. -/
theorem out_blk_read (t : Fin cfg0.N) (G : FVec Ideal S2x3x128 .f32) (u : Fin 1) (j : Fin 3) (l : Fin 128) :
    ((cfg0.win 2).blk t).view.read (Elt Ideal) G (ix3 u j l)
      = G (ix3 (⟨t.val / 32, by have := (pt64 t).isLt; simp only [pt64] at this; omega⟩ : Fin 2) j l) := by
  obtain ⟨-, -, -, -, -, -, e6, e7, e8⟩ := idx_facts t
  show G (((cfg0.win 2).blk t).view.emb (ix3 u j l)) = _
  refine congrArg G (funext fun a => Fin.ext ?_)
  have hu : u.val < 1 := u.isLt
  match a with
  | ⟨0, _⟩ => show win0_2.index t (0 : Fin 3) * 1 + 1 * u.val = t.val / 32; omega
  | ⟨1, _⟩ => show win0_2.index t (1 : Fin 3) * 3 + 1 * j.val = j.val; omega
  | ⟨2, _⟩ => show win0_2.index t (2 : Fin 3) * 128 + 1 * l.val = l.val; omega

/-- An index of the output array is in point `t`'s block iff each coordinate is in the block's range on its axis. -/
theorem mem_blk2 (t : Fin cfg0.N) (i : S2x3x128.Idx) :
    i ∈ ((cfg0.win 2).blk t).view.set ↔ ∀ a : Fin 3, win0_2.index t a * S1x3x128.size a ≤ (i a).val
      ∧ (i a).val < win0_2.index t a * S1x3x128.size a + S1x3x128.size a := by
  show i ∈ ((View.whole main_v2).slice (win0_2.rect t)).set ↔ _
  rw [View.set_slice_whole, Rect.mem_set_unit]
  exact Iff.rfl

/-- Every index of the output array lies in the block of a point that writes it back. -/
theorem out_cover (i : S2x3x128.Idx) :
    ∃ t : Fin cfg0.N, (cfg0.win 2).flush t = true ∧ i ∈ ((cfg0.win 2).blk t).view.set := by
  have hi0 : (i 0).val < 2 := (i 0).isLt
  have hi1 : (i 1).val < 3 := (i 1).isLt
  have hi2 : (i 2).val < 128 := (i 2).isLt
  obtain ⟨t, ht⟩ : ∃ t : Fin cfg0.N, t.val = 32 * (i 0).val + 31 :=
    ⟨⟨32 * (i 0).val + 31, lt_of_lt_of_eq (by omega : 32 * (i 0).val + 31 < 64) N_0.symm⟩, rfl⟩
  obtain ⟨-, -, -, -, -, -, e6, e7, e8⟩ := idx_facts t
  refine ⟨t, (flush0_2 t).2 (by omega), ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 3 ≤ (i 1).val ∧ (i 1).val < win0_2.index t (1 : Fin 3) * 3 + 3
    omega
  | ⟨2, _⟩ =>
    show win0_2.index t (2 : Fin 3) * 128 ≤ (i 2).val ∧ (i 2).val < win0_2.index t (2 : Fin 3) * 128 + 128
    omega

end Cert.KernelIdeal.Blocks

end
-- ==== Proof.KFinal.lean ====
/-
  The kernel's output array after the run.

  The last point of each half stores the three accumulators, as it leaves them, stacked as that half's [1, 3, 128]
  block, and only those two points write the output back. By the invariant, row j of the block at lane l is the select
  chain on l over the half's thirty-two blocks' masked sums of statistic j; a block of the flat input at a grid point
  is the input's stretch at that point's flat positions; and the two halves' blocks cover the [2, 3, 128] array. So the
  array ends as `Cert.Hist.outSpec` of the two argument arrays.
-/
import proofs.«176428_j44813688766553_1_alg».proof.Proof.KInv
import proofs.«176428_j44813688766553_1_alg».proof.Proof.KBlocks

set_option maxRecDepth 16384

noncomputable section

namespace Cert.KernelIdeal.Final

open Cert.KernelIdeal Cert.KernelIdeal.Gen Cert.KernelIdeal.Rows Cert.KernelIdeal.Inv Cert.KernelIdeal.Blocks
open Idealize.ShloMosaic Idealize.ShloMosaic.TcCoe Idealize.ShloMosaic.ValueIdx Idealize.SL.Sem
open scoped BigOperators

variable (m : (ℓ : Loc nD τ sig) → Buf (Elt Ideal) ℓ)

/-- Row 0 of the stack is the first accumulator. -/
theorem stack_row0 (a0 a1 a2 : Vec Ideal S1x128 .f32) (u : Fin 1) (l : Fin 128) :
    (k0_pay1 (F := Ideal) a0 a1 a2 (ix3 u (0 : Fin 3) l) : EReal) = a0 (ix2 (0 : Fin 1) l) := by
  unfold k0_pay1
  rw [shapeCast_ab_1ab_apply]
  refine concatenate_apply_piece (t := S3x128) (0 : Fin 2) [⟨S1x128, a0⟩, ⟨S1x128, a1⟩, ⟨S1x128, a2⟩] concatenates_S1x128_S1x128_S1x128_S3x128_d0 (ix2 (0 : Fin 3) l) 0 (by show (0 : ℕ) < 3; omega) S1x128 a0 rfl rfl 0 rfl
    (ix2 (0 : Fin 1) l) (fun b hb => ?_) rfl
  match b with
  | ⟨0, _⟩ => exact absurd rfl hb
  | ⟨1, _⟩ => rfl

/-- Row 1 of the stack is the second accumulator. -/
theorem stack_row1 (a0 a1 a2 : Vec Ideal S1x128 .f32) (u : Fin 1) (l : Fin 128) :
    (k0_pay1 (F := Ideal) a0 a1 a2 (ix3 u (1 : Fin 3) l) : EReal) = a1 (ix2 (0 : Fin 1) l) := by
  unfold k0_pay1
  rw [shapeCast_ab_1ab_apply]
  refine concatenate_apply_piece (t := S3x128) (0 : Fin 2) [⟨S1x128, a0⟩, ⟨S1x128, a1⟩, ⟨S1x128, a2⟩] concatenates_S1x128_S1x128_S1x128_S3x128_d0 (ix2 (1 : Fin 3) l) 1 (by show (1 : ℕ) < 3; omega) S1x128 a1 rfl rfl 1 rfl
    (ix2 (0 : Fin 1) l) (fun b hb => ?_) rfl
  match b with
  | ⟨0, _⟩ => exact absurd rfl hb
  | ⟨1, _⟩ => rfl

/-- Row 2 of the stack is the third accumulator. -/
theorem stack_row2 (a0 a1 a2 : Vec Ideal S1x128 .f32) (u : Fin 1) (l : Fin 128) :
    (k0_pay1 (F := Ideal) a0 a1 a2 (ix3 u (2 : Fin 3) l) : EReal) = a2 (ix2 (0 : Fin 1) l) := by
  unfold k0_pay1
  rw [shapeCast_ab_1ab_apply]
  refine concatenate_apply_piece (t := S3x128) (0 : Fin 2) [⟨S1x128, a0⟩, ⟨S1x128, a1⟩, ⟨S1x128, a2⟩] concatenates_S1x128_S1x128_S1x128_S3x128_d0 (ix2 (2 : Fin 3) l) 2 (by show (2 : ℕ) < 3; omega) S1x128 a2 rfl rfl 2 rfl
    (ix2 (0 : Fin 1) l) (fun b hb => ?_) rfl
  match b with
  | ⟨0, _⟩ => exact absurd rfl hb
  | ⟨1, _⟩ => rfl

/-- At the last point of a half the output block is the stack of the three accumulators as that point leaves them. -/
theorem out_last (c : Dev nD) (t : Fin cfg0.N) (h1 : t.val % 32 = 31) :
    (outsAt0 m c t.val t.isLt).1
      = k0_pay1 (outsAt0 m c t.val t.isLt).2.1 (outsAt0 m c t.val t.isLt).2.2.1 (outsAt0 m c t.val t.isLt).2.2.2 := by
  have h0 : ¬t.val % 32 = 0 := by omega
  have hc0 : ¬cond0_0 (grid0.coords t) := fun h => h0 ((hcond0_0 t).mp h)
  have hc1 : cond0_1 (grid0.coords t) := (hcond0_1 t).mpr h1
  rw [outsAt0_C m c t h0 h1]
  dsimp only
  rw [out0_C_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (xb m c t) (yb m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_C_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (xb m c t) (yb m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_C_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (xb m c t) (yb m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_C_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (xb m c t) (yb m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- The specified array at half h, statistic j, lane l. -/
theorem outSpec_apply (x : S33554432.Idx → EReal) (y : S33554432.Idx → BitVec 32) (h : Fin 2) (j : Fin 3) (l : Fin 128) :
    Cert.Hist.outSpec x y (ix3 h j l) = Cert.Hist.rowChain (BitVec.ofNat 32 l.val) (fun b => ∑ s : Fin 32,
      Cert.Hist.blockStat x (Cert.Hist.statVal j x y) (Cert.Hist.gridPt h s) b) := rfl

/-- Point k's addend to statistic 0 is the masked sum of the flat input's block at k, k the point of step s of half h. -/
theorem add0_eq_blockStat (c : Dev nD) (k : ℕ) (hk : k < cfg0.N) (h : Fin 2) (s : Fin 32) (hks : k = 32 * h.val + s.val) (b : BitVec 32) :
    add0 m c b k = Cert.Hist.blockStat (m ((c : Thread nD τ).loc main_arg0))
      (Cert.Hist.statVal (0 : Fin 3) (m ((c : Thread nD τ).loc main_arg0)) (m ((c : Thread nD τ).loc main_arg1))) (Cert.Hist.gridPt h s) b := by
  have e : add0 m c b k = _ := dif_pos hk
  rw [e]
  unfold Cert.Hist.blockStat Cert.Hist.maskedSum
  refine Finset.sum_congr rfl fun r _ => Finset.sum_congr rfl fun q _ => ?_
  have hp : pt64 ⟨k, hk⟩ = Cert.Hist.gridPt h s := Fin.ext hks
  have ex := xblk_apply m c ⟨k, hk⟩ r q
  have ey := yblk_apply m c ⟨k, hk⟩ r q
  rw [hp] at ex ey
  show (if Cert.Hist.binOf (xblk m c ⟨k, hk⟩ (ix3 (0 : Fin 1) r q)) = b then (1 : EReal) else 0)
    = if Cert.Hist.binOf (m ((c : Thread nD τ).loc main_arg0) (ix1 (Cert.Hist.flatPos (Cert.Hist.gridPt h s) r q))) = b
        then (1 : EReal) else 0
  rw [← ex]

/-- Point k's addend to statistic 1 is the masked sum of the flat input's block at k, k the point of step s of half h. -/
theorem add1_eq_blockStat (c : Dev nD) (k : ℕ) (hk : k < cfg0.N) (h : Fin 2) (s : Fin 32) (hks : k = 32 * h.val + s.val) (b : BitVec 32) :
    add1 m c b k = Cert.Hist.blockStat (m ((c : Thread nD τ).loc main_arg0))
      (Cert.Hist.statVal (1 : Fin 3) (m ((c : Thread nD τ).loc main_arg0)) (m ((c : Thread nD τ).loc main_arg1))) (Cert.Hist.gridPt h s) b := by
  have e : add1 m c b k = _ := dif_pos hk
  rw [e]
  unfold Cert.Hist.blockStat Cert.Hist.maskedSum
  refine Finset.sum_congr rfl fun r _ => Finset.sum_congr rfl fun q _ => ?_
  have hp : pt64 ⟨k, hk⟩ = Cert.Hist.gridPt h s := Fin.ext hks
  have ex := xblk_apply m c ⟨k, hk⟩ r q
  have ey := yblk_apply m c ⟨k, hk⟩ r q
  rw [hp] at ex ey
  show (if Cert.Hist.binOf (xblk m c ⟨k, hk⟩ (ix3 (0 : Fin 1) r q)) = b then Cert.Hist.conf (xblk m c ⟨k, hk⟩ (ix3 (0 : Fin 1) r q)) else 0)
    = if Cert.Hist.binOf (m ((c : Thread nD τ).loc main_arg0) (ix1 (Cert.Hist.flatPos (Cert.Hist.gridPt h s) r q))) = b
        then Cert.Hist.conf (m ((c : Thread nD τ).loc main_arg0) (ix1 (Cert.Hist.flatPos (Cert.Hist.gridPt h s) r q))) else 0
  rw [← ex]

/-- Point k's addend to statistic 2 is the masked sum of the flat input's block at k, k the point of step s of half h. -/
theorem add2_eq_blockStat (c : Dev nD) (k : ℕ) (hk : k < cfg0.N) (h : Fin 2) (s : Fin 32) (hks : k = 32 * h.val + s.val) (b : BitVec 32) :
    add2 m c b k = Cert.Hist.blockStat (m ((c : Thread nD τ).loc main_arg0))
      (Cert.Hist.statVal (2 : Fin 3) (m ((c : Thread nD τ).loc main_arg0)) (m ((c : Thread nD τ).loc main_arg1))) (Cert.Hist.gridPt h s) b := by
  have e : add2 m c b k = _ := dif_pos hk
  rw [e]
  unfold Cert.Hist.blockStat Cert.Hist.maskedSum
  refine Finset.sum_congr rfl fun r _ => Finset.sum_congr rfl fun q _ => ?_
  have hp : pt64 ⟨k, hk⟩ = Cert.Hist.gridPt h s := Fin.ext hks
  have ex := xblk_apply m c ⟨k, hk⟩ r q
  have ey := yblk_apply m c ⟨k, hk⟩ r q
  rw [hp] at ex ey
  show (if Cert.Hist.binOf (xblk m c ⟨k, hk⟩ (ix3 (0 : Fin 1) r q)) = b then Cert.Hist.labelOf (yblk m c ⟨k, hk⟩ (ix3 (0 : Fin 1) r q)) else 0)
    = if Cert.Hist.binOf (m ((c : Thread nD τ).loc main_arg0) (ix1 (Cert.Hist.flatPos (Cert.Hist.gridPt h s) r q))) = b
        then Cert.Hist.labelOf (m ((c : Thread nD τ).loc main_arg1) (ix1 (Cert.Hist.flatPos (Cert.Hist.gridPt h s) r q))) else 0
  rw [← ex, ← ey]

/-- Row 0 of the block a half's last point stores, at lane l: the select chain over the half's thirty-two blocks'
    masked sums of statistic 0. -/
theorem row0_eq (c : Dev nD) (t : Fin cfg0.N) (h1 : t.val % 32 = 31) (hhalf : t.val / 32 < 2) (u : Fin 1) (l : Fin 128) :
    (k0_pay1 (F := Ideal) (outsAt0 m c t.val t.isLt).2.1 (outsAt0 m c t.val t.isLt).2.2.1 (outsAt0 m c t.val t.isLt).2.2.2
        (ix3 u (0 : Fin 3) l) : EReal)
      = Cert.Hist.rowChain (BitVec.ofNat 32 l.val) (fun b => ∑ s : Fin 32,
          Cert.Hist.blockStat (m ((c : Thread nD τ).loc main_arg0))
            (Cert.Hist.statVal (0 : Fin 3) (m ((c : Thread nD τ).loc main_arg0)) (m ((c : Thread nD τ).loc main_arg1)))
            (Cert.Hist.gridPt ⟨t.val / 32, hhalf⟩ s) b) := by
  rw [stack_row0, (scratch_inv m c t.val t.isLt l).1]
  congr 1
  funext b
  rw [Cert.Hist.runSum_last _ _ h1]
  refine Finset.sum_congr rfl fun s _ => ?_
  have hk : 32 * (t.val / 32) + s.val < cfg0.N := by
    have := s.isLt; have hN : cfg0.N = 64 := N_0; have := t.isLt; omega
  exact add0_eq_blockStat m c _ hk ⟨t.val / 32, hhalf⟩ s rfl b

/-- Row 1 of the block a half's last point stores, at lane l: the select chain over the half's thirty-two blocks'
    masked sums of statistic 1. -/
theorem row1_eq (c : Dev nD) (t : Fin cfg0.N) (h1 : t.val % 32 = 31) (hhalf : t.val / 32 < 2) (u : Fin 1) (l : Fin 128) :
    (k0_pay1 (F := Ideal) (outsAt0 m c t.val t.isLt).2.1 (outsAt0 m c t.val t.isLt).2.2.1 (outsAt0 m c t.val t.isLt).2.2.2
        (ix3 u (1 : Fin 3) l) : EReal)
      = Cert.Hist.rowChain (BitVec.ofNat 32 l.val) (fun b => ∑ s : Fin 32,
          Cert.Hist.blockStat (m ((c : Thread nD τ).loc main_arg0))
            (Cert.Hist.statVal (1 : Fin 3) (m ((c : Thread nD τ).loc main_arg0)) (m ((c : Thread nD τ).loc main_arg1)))
            (Cert.Hist.gridPt ⟨t.val / 32, hhalf⟩ s) b) := by
  rw [stack_row1, (scratch_inv m c t.val t.isLt l).2.1]
  congr 1
  funext b
  rw [Cert.Hist.runSum_last _ _ h1]
  refine Finset.sum_congr rfl fun s _ => ?_
  have hk : 32 * (t.val / 32) + s.val < cfg0.N := by
    have := s.isLt; have hN : cfg0.N = 64 := N_0; have := t.isLt; omega
  exact add1_eq_blockStat m c _ hk ⟨t.val / 32, hhalf⟩ s rfl b

/-- Row 2 of the block a half's last point stores, at lane l: the select chain over the half's thirty-two blocks'
    masked sums of statistic 2. -/
theorem row2_eq (c : Dev nD) (t : Fin cfg0.N) (h1 : t.val % 32 = 31) (hhalf : t.val / 32 < 2) (u : Fin 1) (l : Fin 128) :
    (k0_pay1 (F := Ideal) (outsAt0 m c t.val t.isLt).2.1 (outsAt0 m c t.val t.isLt).2.2.1 (outsAt0 m c t.val t.isLt).2.2.2
        (ix3 u (2 : Fin 3) l) : EReal)
      = Cert.Hist.rowChain (BitVec.ofNat 32 l.val) (fun b => ∑ s : Fin 32,
          Cert.Hist.blockStat (m ((c : Thread nD τ).loc main_arg0))
            (Cert.Hist.statVal (2 : Fin 3) (m ((c : Thread nD τ).loc main_arg0)) (m ((c : Thread nD τ).loc main_arg1)))
            (Cert.Hist.gridPt ⟨t.val / 32, hhalf⟩ s) b) := by
  rw [stack_row2, (scratch_inv m c t.val t.isLt l).2.2]
  congr 1
  funext b
  rw [Cert.Hist.runSum_last _ _ h1]
  refine Finset.sum_congr rfl fun s _ => ?_
  have hk : 32 * (t.val / 32) + s.val < cfg0.N := by
    have := s.isLt; have hN : cfg0.N = 64 := N_0; have := t.isLt; omega
  exact add2_eq_blockStat m c _ hk ⟨t.val / 32, hhalf⟩ s rfl b

/-- WHAT A WRITING POINT WRITES BACK is its half's block of the specified array. -/
theorem flushed_eq (c : Dev nD) (t : Fin cfg0.N) (hf : (cfg0.win 2).flush t = true) :
    (dats m 0 c).flushed 2 t = ((cfg0.win 2).blk t).view.read (Elt Ideal)
      (Cert.Hist.outSpec (m ((c : Thread nD τ).loc main_arg0)) (m ((c : Thread nD τ).loc main_arg1))) := by
  have h1 : t.val % 32 = 31 := (flush0_2 t).mp hf
  have hhalf : t.val / 32 < 2 := by have hN : cfg0.N = 64 := N_0; have := t.isLt; omega
  show (cfg0.win 2).cut (grid0.coords t) ((dats m 0 c).after 2 t) = _
  rw [after0_2, out_last m c t h1]
  funext y
  obtain ⟨u, j, l, rfl⟩ : ∃ (u : Fin 1) (j : Fin 3) (l : Fin 128), y = ix3 u j l := ⟨y 0, y 1, y 2, eq_ix3 y⟩
  rw [out_blk_read, outSpec_apply]
  match j with
  | ⟨0, _⟩ => exact row0_eq m c t h1 hhalf u l
  | ⟨1, _⟩ => exact row1_eq m c t h1 hhalf u l
  | ⟨2, _⟩ => exact row2_eq m c t h1 hhalf u l

/-- THE OUTPUT ARRAY after the run. -/
theorem final (c : Dev nD) :
    (dats m 0 c).arrAt 2 cfg0.N
      = Cert.Hist.outSpec (m ((c : Thread nD τ).loc main_arg0)) (m ((c : Thread nD τ).loc main_arg1)) :=
  (dats m 0 c).arrAt_eq_of_cover 2 _ (fun t hf => flushed_eq m c t hf) out_cover

end Cert.KernelIdeal.Final

end
-- ==== Proof.KTail.lean ====
/-
  The kernel program's host operations after its region, read as a value. They sum the region's output array over its
  two halves, cut lanes 0 … 9 of each of the three statistic rows, and apply to those three ten-entry vectors the same
  operations the reference applies to its three scatter results (`Cert.Hist.tail`).
-/
import proofs.«176428_j44813688766553_1_alg».proof.Proof.Gen.KernelIdeal.Frame
import proofs.«176428_j44813688766553_1_alg».proof.Proof.Spec
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.Tail

open Cert.KernelIdeal Cert.KernelIdeal.Gen Idealize.ShloMosaic Idealize.ShloMosaic.TcCoe Idealize.ShloMosaic.ValueIdx Idealize.SL.Sem
open scoped BigOperators

/-- Entry `k` of ten as a lane of 128. -/
def laneOf (k : S10.Idx) : Fin 128 := ⟨(k 0).val, Nat.lt_of_lt_of_le (k 0).isLt (by decide)⟩

/-- One statistic row as a ten-entry vector: the array summed over its two halves from zero, row `o` cut at lanes
    0 … 9 and read as a vector, is at entry `k` zero plus the sum over the halves of the array at row `o`, lane `k`. -/
theorem rowVec (G : FVec Ideal S2x3x128 .f32) (o : Nat) (ho : o < 3) (hs : S3x128.Slices ![o, 0] S1x10) :
    shapeCast S10 (extractStridedSlice S1x10 ![o, 0]
        (Host.reduceAdd (F := Ideal) G (constant S_ .f32 0x00000000#32) reducesTo_S2x3x128_S3x128_d0 h_S_) hs) shapeCasts_S1x10_S10
      = fun k => (0 : EReal) + ∑ h : Fin 2, (G (ix3 h (⟨o, ho⟩ : Fin 3) (laneOf k)) : EReal) := by
  funext k
  obtain ⟨kk, rfl⟩ : ∃ kk : Fin 10, k = ix1 kk :=
    ⟨⟨(k 0).val, (k 0).isLt⟩, by funext d; match d with | ⟨0, _⟩ => rfl⟩
  -- entry kk of the vector is entry (0, kk) of the cut, which is entry (o, kk) of the summed array
  rw [shapeCast_1a_a_apply]
  rw [extractStridedSlice_apply ![o, 0] _ hs (ix2 (0 : Fin 1) kk) (ix2 (⟨o, ho⟩ : Fin 3) (laneOf (ix1 kk))) (fun a => by
        match a with
        | ⟨0, _⟩ => rfl
        | ⟨1, _⟩ => exact (Nat.zero_add _).symm)]
  -- the sum over the leading axis: the initial value plus the sum over that axis's two coordinates
  unfold Host.reduceAdd
  rw [Ideal.hostReduceAdd_def]
  rw [Ideal.hostReduceAdd_single reducesTo_S2x3x128_S3x128_d0 (by decide : S2x3x128.Reduces [0] S3x128)]
  refine congrArg₂ (· + ·) Ideal.ofBits_zero_f32 (Finset.sum_congr rfl fun h _ => congrArg G ?_)
  -- the index with coordinate h put back on the leading axis is (h, o, lane)
  funext a
  apply Fin.ext
  rw [Shape.Reduces.lift_val]
  unfold Shape.Reduces.liftVal
  match a with
  | ⟨0, _⟩ => rfl
  | ⟨1, _⟩ => rfl
  | ⟨2, _⟩ => rfl

/-- Stacking two rows respects equality of the rows. -/
theorem cat2_congr {a a' b b' : FVec Ideal S1x10 .f32} (ha : a = a') (hb : b = b') :
    concatenate S2x10 0 [⟨S1x10, a⟩, ⟨S1x10, b⟩] concatenates_S1x10_S1x10_S2x10_d0
      = concatenate S2x10 0 [⟨S1x10, a'⟩, ⟨S1x10, b'⟩] concatenates_S1x10_S1x10_S2x10_d0 := by rw [ha, hb]

/-- The result buffer after the host operations that follow the region, given what the region leaves in its output
    array: the shared tail of, per statistic row, zero plus the sum over the two halves of the array's entry at that
    row and lane. -/
theorem tail_value (m : (ℓ : Loc nD τ sig) → Buf (Elt Ideal) ℓ) (c : Dev nD) (G : FVec Ideal S2x3x128 .f32)
    (hG : (dats (F := Ideal) m 0 c).arrAt 2 cfg0.N = G) :
    Pipeline.afterTail₀ cfgs (dats (F := Ideal) m) 0 (V0 m) [hostOps1, hostOps1_1, hostOps1_2, hostOps1_3, hostOps1_4] c main_v20
      = Cert.Hist.tail (F := Ideal) bcast_S_S10 bcast_S10_S1x10_1 concatenates_S1x10_S1x10_S2x10_d0
          (fun k => (0 : EReal) + ∑ h : Fin 2, (G (ix3 h (0 : Fin 3) (laneOf k)) : EReal))
          (fun k => (0 : EReal) + ∑ h : Fin 2, (G (ix3 h (1 : Fin 3) (laneOf k)) : EReal))
          (fun k => (0 : EReal) + ∑ h : Fin 2, (G (ix3 h (2 : Fin 3) (laneOf k)) : EReal)) := by
  unfold Pipeline.afterTail₀
  -- the region's output array is where the host operations find it
  have hleaf : Pipeline.withArrays (cfgs 0).spec c (V0 m c) (fun w => (dats (F := Ideal) m 0 c).arrAt w (cfgs 0).N) (Proc.devRef .tc main_v2) = G := by
    rw [← hG]; exact Pipeline.withArrays_arr spec0 launch0.win.arr_inj c _ _ 2
  generalize Pipeline.withArrays (cfgs 0).spec c (V0 m c) (fun w => (dats (F := Ideal) m 0 c).arrAt w (cfgs 0).N) = W at hleaf ⊢
  simp only [hostOps1, hostOps1_1, hostOps1_2, hostOps1_3, hostOps1_4, List.flatten_cons, List.flatten_nil, List.append_nil, List.cons_append, List.nil_append]
  simp only [StableHlo.after_cons, StableHlo.after_nil]
  -- the last operation stacks two rows; each row is the composition of the operations that feed it
  rw [StableHlo.binary_result]
  refine (cat2_congr (a' := ?a') (b' := ?b') ?h1 ?h2).trans ?h3
  case h1 => after_results_simp; rfl
  case h2 => after_results_simp; rfl
  rw [hleaf]
  -- the composition is the shared tail at the three cut rows of the summed array
  refine (show _ = Cert.Hist.tail (F := Ideal) bcast_S_S10 bcast_S10_S1x10_1 concatenates_S1x10_S1x10_S2x10_d0
    (shapeCast S10 (extractStridedSlice S1x10 ![0, 0] (Host.reduceAdd (F := Ideal) G (constant S_ .f32 0x00000000#32) reducesTo_S2x3x128_S3x128_d0 h_S_) slices_S3x128_S1x10_0_0) shapeCasts_S1x10_S10)
    (shapeCast S10 (extractStridedSlice S1x10 ![1, 0] (Host.reduceAdd (F := Ideal) G (constant S_ .f32 0x00000000#32) reducesTo_S2x3x128_S3x128_d0 h_S_) slices_S3x128_S1x10_1_0) shapeCasts_S1x10_S10)
    (shapeCast S10 (extractStridedSlice S1x10 ![2, 0] (Host.reduceAdd (F := Ideal) G (constant S_ .f32 0x00000000#32) reducesTo_S2x3x128_S3x128_d0 h_S_) slices_S3x128_S1x10_2_0) shapeCasts_S1x10_S10) from rfl).trans ?_
  rw [rowVec G 0 (by decide) slices_S3x128_S1x10_0_0, rowVec G 1 (by decide) slices_S3x128_S1x10_1_0,
    rowVec G 2 (by decide) slices_S3x128_S1x10_2_0]
  rfl

end Cert.KernelIdeal.Tail

end
-- ==== Proof.Join.lean ====
/-
  The arithmetic that joins the kernel's output array to the flat statistics: at a lane below ten the select chain is
  that lane's bin value, the two halves' thirty-two blocks each are the sixty-four blocks of the whole input, and the
  blocks' masked sums add up to the statistic.
-/
import proofs.«176428_j44813688766553_1_alg».proof.Proof.Spec

noncomputable section

namespace Cert.Hist

open Idealize.ShloMosaic Idealize.ShloMosaic.ValueIdx
open scoped BigOperators

/-- A sum over the sixty-four grid points is the sum over the two halves of the sum over each half's thirty-two steps. -/
theorem sum_gridPt {M : Type*} [AddCommMonoid M] (g : Fin 64 → M) :
    ∑ t : Fin 64, g t = ∑ h : Fin 2, ∑ s : Fin 32, g (gridPt h s) := by
  let e : Fin 2 × Fin 32 ≃ Fin 64 := finProdFinEquiv.trans (finCongr (by norm_num))
  rw [← e.sum_comp g, Fintype.sum_prod_type]
  refine Finset.sum_congr rfl fun h _ => Finset.sum_congr rfl fun s _ => ?_
  congr 1
  apply Fin.ext
  simp only [e, Equiv.trans_apply, finProdFinEquiv_apply_val, finCongr_apply, Fin.coe_cast, gridPt]
  omega

/-- The output array at half `h`, statistic `j` and a lane `k` below ten is the sum over the half's thirty-two blocks
    of the masked sums for bin `k`: the select chain at a lane below ten is that lane's bin value. -/
theorem outSpec_lt (x : (⟨1, ![33554432]⟩ : Shape).Idx → EReal) (y : (⟨1, ![33554432]⟩ : Shape).Idx → BitVec 32)
    (h : Fin 2) (j : Fin 3) (k : Nat) (hk : k < 10) (hk' : k < 128) :
    outSpec x y (ix3 h j (⟨k, hk'⟩ : Fin 128))
      = ∑ s : Fin 32, blockStat x (statVal j x y) (gridPt h s) (BitVec.ofNat 32 k) := by
  show rowChain (BitVec.ofNat 32 k) (fun b => ∑ s : Fin 32, blockStat x (statVal j x y) (gridPt h s) b) = _
  rw [rowChain_lt k hk]

/-- Zero plus the two halves' entries of the output array at statistic `j` and a lane `k` below ten is statistic `j`
    of bin `k` over the whole input. -/
theorem half_sums (x : (⟨1, ![33554432]⟩ : Shape).Idx → EReal) (y : (⟨1, ![33554432]⟩ : Shape).Idx → BitVec 32)
    (j : Fin 3) (k : Fin 10) :
    (0 : EReal) + ∑ h : Fin 2, outSpec x y (ix3 h j (⟨k.val, Nat.lt_of_lt_of_le k.isLt (by decide)⟩ : Fin 128))
      = stat x (statVal j x y) (BitVec.ofNat 32 k.val) := by
  rw [zero_add, stat_eq_blockStat, sum_gridPt]
  exact Finset.sum_congr rfl fun h _ => outSpec_lt x y h j k.val k.isLt _

end Cert.Hist

end
-- ==== Proof.KValue.lean ====
/-
  The kernel program's run, with its result named.

  The generated frame run ends with the output array at what the proof data compute, which is `Cert.Hist.outSpec` of the
  two argument arrays (KFinal), and every other buffer at the host operations after the region applied to that. Those
  operations read the output array into the shared tail of, per statistic, zero plus the two halves' entries at lanes
  0 … 9 (KTail), and those half sums are the flat statistics (Join). So the result buffer ends at the shared tail of the
  count, the confidence sum and the label sum of each bin over the whole input, the arguments unchanged.
-/
import proofs.«176428_j44813688766553_1_alg».proof.Proof.KFinal
import proofs.«176428_j44813688766553_1_alg».proof.Proof.KTail
import proofs.«176428_j44813688766553_1_alg».proof.Proof.Join

set_option maxRecDepth 16384

noncomputable section

namespace Cert.KernelIdeal.Value

open Cert.KernelIdeal Cert.KernelIdeal.Gen Cert.KernelIdeal.Tail
open Idealize.ShloMosaic Idealize.ShloMosaic.TcCoe Idealize.ShloMosaic.ValueIdx Idealize.SL.Sem
open scoped BigOperators

/-- The two halves' entries of the specified output array at statistic `j`, summed from zero, are statistic `j` of the
    whole input, bin by bin. -/
theorem halves (x : S33554432.Idx → EReal) (y : S33554432.Idx → BitVec 32) (j : Fin 3) :
    (fun k : S10.Idx => (0 : EReal) + ∑ h : Fin 2, (Cert.Hist.outSpec x y (ix3 h j (laneOf k)) : EReal))
      = fun k => Cert.Hist.stat x (Cert.Hist.statVal j x y) (Cert.Hist.binWord k) := by
  funext k
  exact Cert.Hist.half_sums x y j ⟨(k 0).val, (k 0).isLt⟩

/-- The result the kernel program computes, as a function of the two argument arrays. -/
def result (x : S33554432.Idx → EReal) (y : S33554432.Idx → BitVec 32) : FVec Ideal S2x10 .f32 :=
  Cert.Hist.tail (F := Ideal) bcast_S_S10 bcast_S10_S1x10_1 concatenates_S1x10_S1x10_S2x10_d0
    (Cert.Hist.counts x) (Cert.Hist.sumConf x) (Cert.Hist.sumPos x y)

/-- Every weakly fair execution of the kernel program at the ideal values terminates with the result buffer at
    `result` of the argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v20)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v20 (Pipeline.mem_restRefs_of main_v20 (by decide) (by decide))).trans ?_
    rw [tail_value m c _ (Cert.KernelIdeal.Final.final m c)]
    unfold result
    rw [halves _ _ 0, halves _ _ 1, halves _ _ 2]
    rfl
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Value

end
-- ==== Proof.lean ====
/- A ten-bin reliability histogram: the kernel against its reference, over the extended reals.

   Both programs take 2^25 logits and labels. Each logit x has confidence 1 / (1 + e^(-x)) and bin
   clamp (⌈10 · confidence⌉ - 1, 0, 9); per bin the programs form the count, the sum of the confidences and the sum of
   the labels of the elements in it, and from those three ten-entry vectors the same final operations give the result:
   per bin, where the count is positive, the label sum and the confidence sum divided by max (count, 1), else zero.

   The reference forms the three statistics by three accumulating scatters into ten zeros. The kernel walks the input in
   two halves of thirty-two blocks of 4096 × 128 elements; per block and bin it sums the masked entries over lanes and
   then rows, lays the ten sums along lanes 0 … 9 of a 128-lane row by ten selects on the lane number, and adds the row
   to an accumulator that it resets at the first block of a half and stores at the last; the host adds the two halves and
   cuts lanes 0 … 9. The select chain is additive in the bin values, so after every block an accumulator holds the chain
   over the running sums; a sum over all 2^25 elements is the sum over blocks, rows and lanes; sums over the extended
   reals may be regrouped freely. Nothing here needs the inputs finite. The ideal pass rewrote nothing, so the
   preservation claim is trivial; the three frames are the generated frame runs and the reference's run. -/
import proofs.«176428_j44813688766553_1_alg».proof.Defs
import proofs.«176428_j44813688766553_1_alg».proof.Proof.Gen.Kernel
import proofs.«176428_j44813688766553_1_alg».proof.Proof.Gen.Kernel.Skeleton
import proofs.«176428_j44813688766553_1_alg».proof.Proof.Gen.Kernel.Launch
import proofs.«176428_j44813688766553_1_alg».proof.Proof.Gen.Kernel.Points
import proofs.«176428_j44813688766553_1_alg».proof.Proof.Gen.Kernel.Frame
import proofs.«176428_j44813688766553_1_alg».proof.Proof.Gen.KernelIdeal
import proofs.«176428_j44813688766553_1_alg».proof.Proof.Gen.KernelIdeal.Skeleton
import proofs.«176428_j44813688766553_1_alg».proof.Proof.Gen.KernelIdeal.Launch
import proofs.«176428_j44813688766553_1_alg».proof.Proof.Gen.KernelIdeal.Points
import proofs.«176428_j44813688766553_1_alg».proof.Proof.Gen.KernelIdeal.Frame
import proofs.«176428_j44813688766553_1_alg».proof.Proof.Gen.ReferenceIdeal
import proofs.«176428_j44813688766553_1_alg».proof.Proof.Gen.Pre_finite_inputs
import proofs.«176428_j44813688766553_1_alg».proof.Proof.RefValue
import proofs.«176428_j44813688766553_1_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- At the ideal values both programs end with the shared final operations applied to the count, the confidence sum
    and the label sum of each bin over the whole input. -/
theorem algebraic : Cert.algebraic_KernelIdeal_ReferenceIdeal := by
  intro m ρ m' ρ' _ hagree
  refine ⟨fun c => Cert.KernelIdeal.Value.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v34_eq, Cert.Hist.Ref.ref_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
